-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x1600000 : Shape := ⟨2, ![2, 1600000]⟩
abbrev S1600000x128 : Shape := ⟨2, ![1600000, 128]⟩
abbrev S128x128 : Shape := ⟨2, ![128, 128]⟩
abbrev S128x256 : Shape := ⟨2, ![128, 256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S1600000x128 : S_.BroadcastsInDim S1600000x128 (![] : Fin 0 → Fin S1600000x128.rank)
  reducesTo_S1600000x128_S_d0_1 : S1600000x128.ReducesTo [0, 1] S_
  bcast_S_S128x128 : S_.BroadcastsInDim S128x128 (![] : Fin 0 → Fin S128x128.rank)
  reducesTo_S128x128_S_d0_1 : S128x128.ReducesTo [0, 1] S_
  bcast_S_S128x256 : S_.BroadcastsInDim S128x256 (![] : Fin 0 → Fin S128x256.rank)
  reducesTo_S128x256_S_d0_1 : S128x256.ReducesTo [0, 1] S_
  bcast_S_S2x1600000 : S_.BroadcastsInDim S2x1600000 (![] : Fin 0 → Fin S2x1600000.rank)
  reducesTo_S2x1600000_S_d0_1 : S2x1600000.ReducesTo [0, 1] S_

variable [Facts]

def fn_part2 {F : FTy → Type} [FloatOps F] (main_arg1 : IVec S2x1600000 32) (main_arg8 : FVec F S128x128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_c_14 : IVec S_ 32 := constantI S_ 32 4294917296#32
  let main_v39 : IVec S2x1600000 32 := broadcastInDim S2x1600000 ![] bcast_S_S2x1600000 main_c_14
  let main_v40 : IVec S2x1600000 1 := cmpi .sge main_arg1 main_v39
  let main_c_15 : IVec S_ 32 := constantI S_ 32 50000#32
  let main_v41 : IVec S2x1600000 32 := broadcastInDim S2x1600000 ![] bcast_S_S2x1600000 main_c_15
  let main_v42 : IVec S2x1600000 1 := cmpi .slt main_arg1 main_v41
  let main_v43 : IVec S2x1600000 1 := andi main_v40 main_v42
  let main_c_16 : IVec S_ 1 := constantI S_ 1 1#1
  let main_v44 : IVec S_ 1 := (fun x v => Host.reduce IntOp.andi x v reducesTo_S2x1600000_S_d0_1 h_S_) main_v43 main_c_16
  let main_v45 : IVec S_ 1 := andi main_v38 main_v44
  main_v45

def fn_part1 {F : FTy → Type} [FloatOps F] (main_arg1 : IVec S2x1600000 32) (main_arg5 : FVec F S128x256 .f32) (main_arg6 : FVec F S128x256 .f32) (main_arg7 : FVec F S128x256 .f32) (main_arg8 : FVec F S128x128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128x256 .f32 := Host.absf main_arg5
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128x256 .f32 := Host.absf main_arg6
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128x256 .f32 := Host.absf main_arg7
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg1 main_arg8 main_v33

def fn {F : FTy → Type} [FloatOps F] (main_arg0 : FVec F S50000x256 .f32) (main_arg1 : IVec S2x1600000 32) (main_arg2 : FVec F S1600000x128 .f32) (main_arg3 : FVec F S128x128 .f32) (main_arg4 : FVec F S128x256 .f32) (main_arg5 : FVec F S128x256 .f32) (main_arg6 : FVec F S128x256 .f32) (main_arg7 : FVec F S128x256 .f32) (main_arg8 : FVec F S128x128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S1600000x128 .f32 := Host.absf main_arg2
  let main_cst_0 : FVec F S_ .f32 := constant S_ .f32 0x7F800000#32
  let main_v5 : FVec F S1600000x128 .f32 := broadcastInDim S1600000x128 ![] bcast_S_S1600000x128 main_cst_0
  let main_v6 : IVec S1600000x128 1 := cmpf .olt main_v4 main_v5
  let main_c_1 : IVec S_ 1 := constantI S_ 1 1#1
  let main_v7 : IVec S_ 1 := (fun x v => Host.reduce IntOp.andi x v reducesTo_S1600000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg1 main_arg5 main_arg6 main_arg7 main_arg8 main_v13 main_v16
-- ==== Kernel.lean ====
abbrev S50000x256 : Shape := ⟨2, ![50000, 256]⟩
abbrev S2x1600000 : Shape := ⟨2, ![2, 1600000]⟩
abbrev S1600000x128 : Shape := ⟨2, ![1600000, 128]⟩
abbrev S128x128 : Shape := ⟨2, ![128, 128]⟩
abbrev S128x256 : Shape := ⟨2, ![128, 256]⟩
abbrev S1x1600000 : Shape := ⟨2, ![1, 1600000]⟩
abbrev S1600000 : Shape := ⟨1, ![1600000]⟩
abbrev S256x128 : Shape := ⟨2, ![256, 128]⟩
abbrev S256x256 : Shape := ⟨2, ![256, 256]⟩
abbrev S50000x128 : Shape := ⟨2, ![50000, 128]⟩
abbrev S2000x256 : Shape := ⟨2, ![2000, 256]⟩
abbrev S2000x128 : Shape := ⟨2, ![2000, 128]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S5000x128 : Shape := ⟨2, ![5000, 128]⟩
abbrev S1600000x129 : Shape := ⟨2, ![1600000, 129]⟩
abbrev S50000x129 : Shape := ⟨2, ![50000, 129]⟩
abbrev S50000x1 : Shape := ⟨2, ![50000, 1]⟩
abbrev S50000 : Shape := ⟨1, ![50000]⟩

abbrev nBuf : Space → Nat
  | .hbm => 88
  | .vmem => 26
  | .smem => 0
  | _ => 0

abbrev bufTy : (tb : Table) → Fin (tcTables nBuf tb) → BufTy
  | .hbm, ⟨0, _⟩ => ⟨S50000x256, .f32⟩
  | .hbm, ⟨1, _⟩ => ⟨S2x1600000, .i32⟩
  | .hbm, ⟨2, _⟩ => ⟨S1600000x128, .f32⟩
  | .hbm, ⟨3, _⟩ => ⟨S128x128, .f32⟩
  | .hbm, ⟨4, _⟩ => ⟨S128x256, .f32⟩
  | .hbm, ⟨5, _⟩ => ⟨S128x256, .f32⟩
  | .hbm, ⟨6, _⟩ => ⟨S128x256, .f32⟩
  | .hbm, ⟨7, _⟩ => ⟨S128x256, .f32⟩
  | .hbm, ⟨8, _⟩ => ⟨S128x128, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S256x128, .f32⟩
  | .hbm, ⟨14, _⟩ => ⟨S256x128, .f32⟩
  | .hbm, ⟨15, _⟩ => ⟨S256x256, .f32⟩
  | .hbm, ⟨16, _⟩ => ⟨S50000x128, .f32⟩
  | .hbm, ⟨17, _⟩ => ⟨S50000x128, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1, .i32⟩
  | .hbm, ⟨27, _⟩ => ⟨S_, .i32⟩
  | .hbm, ⟨28, _⟩ => ⟨S1600000x1, .i32⟩
  | .hbm, ⟨29, _⟩ => ⟨S1600000x1, .i1⟩
  | .hbm, ⟨30, _⟩ => ⟨S1x1, .i32⟩
  | .hbm, ⟨31, _⟩ => ⟨S1600000x1, .i32⟩
  | .hbm, ⟨32, _⟩ => ⟨S1600000x1, .i1⟩
  | .hbm, ⟨33, _⟩ => ⟨S1600000x1, .i1⟩
  | .hbm, ⟨34, _⟩ => ⟨S_, .i1⟩
  | .hbm, ⟨35, _⟩ => ⟨S1600000, .i1⟩
  | .hbm, ⟨36, _⟩ => ⟨S1600000x128, .f32⟩
  | .hbm, ⟨37, _⟩ => ⟨S1600000x128, .i1⟩
  | .hbm, ⟨38, _⟩ => ⟨S_, .f32⟩
  | .hbm, ⟨39, _⟩ => ⟨S1600000x128, .f32⟩
  | .hbm, ⟨40, _⟩ => ⟨S1600000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1, .i32⟩
  | .hbm, ⟨50, _⟩ => ⟨S_, .i32⟩
  | .hbm, ⟨51, _⟩ => ⟨S1600000x1, .i32⟩
  | .hbm, ⟨52, _⟩ => ⟨S1600000x1, .i1⟩
  | .hbm, ⟨53, _⟩ => ⟨S1x1, .i32⟩
  | .hbm, ⟨54, _⟩ => ⟨S1600000x1, .i32⟩
  | .hbm, ⟨55, _⟩ => ⟨S1600000x1, .i1⟩
  | .hbm, ⟨56, _⟩ => ⟨S1600000x1, .i1⟩
  | .hbm, ⟨57, _⟩ => ⟨S_, .i1⟩
  | .hbm, ⟨58, _⟩ => ⟨S1600000, .i1⟩
  | .hbm, ⟨59, _⟩ => ⟨S1600000x128, .f32⟩
  | .hbm, ⟨60, _⟩ => ⟨S1600000x128, .i1⟩
  | .hbm, ⟨61, _⟩ => ⟨S_, .f32⟩
  | .hbm, ⟨62, _⟩ => ⟨S1600000x128, .f32⟩
  | .hbm, ⟨63, _⟩ => ⟨S1600000x128, .f32⟩
  | .hbm, ⟨64, _⟩ => ⟨S128x128, .f32⟩
  | .hbm, ⟨65, _⟩ => ⟨S128x128, .f32⟩
  | .hbm, ⟨66, _⟩ => ⟨S1600000x128, .f32⟩
  | .hbm, ⟨67, _⟩ => ⟨S1600000x128, .f32⟩
  | .hbm, ⟨68, _⟩ => ⟨S_, .f32⟩
  | .hbm, ⟨69, _⟩ => ⟨S1600000x1, .f32⟩
  | .hbm, ⟨70, _⟩ => ⟨S1600000x129, .f32⟩
  | .hbm, ⟨71, _⟩ => ⟨S_, .f32⟩
  | .hbm, ⟨72, _⟩ => ⟨S50000x129, .f32⟩
  | .hbm, ⟨73, _⟩ => ⟨S1600000x1, .i32⟩
  | .hbm, ⟨74, _⟩ => ⟨S50000x129, .f32⟩
  | .hbm, ⟨75, _⟩ => ⟨S50000x128, .f32⟩
  | .hbm, ⟨76, _⟩ => ⟨S50000x1, .f32⟩
  | .hbm, ⟨77, _⟩ => ⟨S50000, .f32⟩
  | .hbm, ⟨78, _⟩ => ⟨S_, .f32⟩
  | .hbm, ⟨79, _⟩ => ⟨S50000, .f32⟩
  | .hbm, ⟨80, _⟩ => ⟨S50000, .f32⟩
  | .hbm, ⟨81, _⟩ => ⟨S50000x1, .f32⟩
  | .hbm, ⟨82, _⟩ => ⟨S50000x128, .f32⟩
  | .hbm, ⟨83, _⟩ => ⟨S50000x128, .f32⟩
  | .hbm, ⟨84, _⟩ => ⟨S256x128, .f32⟩
  | .hbm, ⟨85, _⟩ => ⟨S256x128, .f32⟩
  | .hbm, ⟨86, _⟩ => ⟨S256x256, .f32⟩
  | .hbm, ⟨87, _⟩ => ⟨S50000x128, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S2000x256, .f32⟩
  | .local _ .vmem, ⟨20, _⟩ => ⟨S2000x256, .f32⟩
  | .local _ .vmem, ⟨21, _⟩ => ⟨S256x256, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v8 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_c_1 : Ref sig .tc := ⟨.hbm, 49, rfl⟩
abbrev main_call1_c_2 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_3 : Ref sig .tc := ⟨.hbm, 57, rfl⟩
abbrev main_call1_v12 : Ref sig .tc := ⟨.hbm, 58, rfl⟩
abbrev main_call1_v13 : Ref sig .tc := ⟨.hbm, 59, rfl⟩
abbrev main_call1_v14 : Ref sig .tc := ⟨.hbm, 60, rfl⟩
abbrev main_call1_cst : Ref sig .tc := ⟨.hbm, 61, rfl⟩
abbrev main_call1_v15 : Ref sig .tc := ⟨.hbm, 62, rfl⟩
abbrev main_v9 : Ref sig .tc := ⟨.hbm, 63, rfl⟩
abbrev main_v10 : Ref sig .tc := ⟨.hbm, 64, rfl⟩
abbrev main_v11 : Ref sig .tc := ⟨.hbm, 65, rfl⟩
abbrev main_v12_0 : Ref sig .tc := ⟨.hbm, 66, rfl⟩
abbrev main_v12_1 : Ref sig .tc := ⟨.hbm, 67, rfl⟩
abbrev main_cst : Ref sig .tc := ⟨.hbm, 68, rfl⟩
abbrev main_v13 : Ref sig .tc := ⟨.hbm, 69, rfl⟩
abbrev main_v14 : Ref sig .tc := ⟨.hbm, 70, rfl⟩
abbrev main_cst_0 : Ref sig .tc := ⟨.hbm, 71, rfl⟩
abbrev main_v15 : Ref sig .tc := ⟨.hbm, 72, rfl⟩
abbrev main_v16 : Ref sig .tc := ⟨.hbm, 73, rfl⟩
abbrev main_v17 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_cst_1 : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc1_sem6_0 : DmaSem sig := 17
abbrev cc1_sem6_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem2_1 : DmaSem sig := 23
abbrev cc2_sem3_0 : DmaSem sig := 24
abbrev cc2_sem3_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![320], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S128x256_S256x128_1_0 : S128x256.Transposes [1, 0] S256x128
  concatenates_S256x128_S256x128_S256x256_d1 : Shape.Concatenates [S256x128, S256x128] S256x256 1
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S2000x256_o0_0_S2000x128 : S2000x256.Slices ![0, 0] S2000x128
  inb_S2000x128_S2000x128_0_0 : ∀ a, (![0, 0] : Fin 2 → Nat) a + S2000x128.size a ≤ S2000x128.size a
  h_S2000x128 : 0 < S2000x128.numel
  slices_S2000x256_o0_128_S2000x128 : S2000x256.Slices ![0, 128] S2000x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S5000x128_S5000x128 : S5000x128.ShapeCasts S5000x128
  concatenates_S1600000x128_S1600000x1_S1600000x129_d1 : Shape.Concatenates [S1600000x128, S1600000x1] S1600000x129 1
  bcast_S_S50000x129 : S_.BroadcastsInDim S50000x129 (![] : Fin 0 → Fin S50000x129.rank)
  slices_S50000x129_S50000x128_0_0 : S50000x129.Slices ![0, 0] S50000x128
  slices_S50000x129_S50000x1_0_128 : S50000x129.Slices ![0, 128] S50000x1
  shapeCasts_S50000x1_S50000 : S50000x1.ShapeCasts S50000
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S2000x128_S2000x128 : S2000x128.ShapeCasts S2000x128
  dot_S2000x256_S256x256_S2000x256_1_0_0_1_n_n_wf : DotDims.WF S2000x256 S256x256 S2000x256 [1] [0] [0] [1] [] []
  gather_S50000x128_S1600000x1_S1600000x128_1_0_n_n_0_1_1128_wf : GatherDims.WF S50000x128 S1600000x1 S1600000x128 [1] [0] [] [0] [] 1 ![1, 128]
  dot_S5000x128_S128x128_S5000x128_1_0_0_1_n_n_wf : DotDims.WF S5000x128 S128x128 S5000x128 [1] [0] [0] [1] [] []
  scatter_S50000x129_S1600000x1_S1600000x129_1_0_0_1_wf : ScatterDims.WF S50000x129 S1600000x1 S1600000x129 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S1600000x128.size a
  hwx1_0 : ∀ i : grid1.Coords, EltTy.bits .f32 = 32 ∨ (Rect.block (s := S1600000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S1600000x128.size a
  hwx1_1 : ∀ i : grid1.Coords, EltTy.bits .f32 = 32 ∨ (Rect.block (s := S1600000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S1600000x128.size a
  hwx1_2 : ∀ i : grid1.Coords, EltTy.bits .f32 = 32 ∨ (Rect.block (s := S1600000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S1600000x128.size a
  hwx1_5 : ∀ i : grid1.Coords, EltTy.bits .f32 = 32 ∨ (Rect.block (s := S1600000x128) S5000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S1600000x128.size a
  hwx1_6 : ∀ i : grid1.Coords, EltTy.bits .f32 = 32 ∨ (Rect.block (s := S1600000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .f32 = 32 ∨ (Rect.block (s := S50000x128) S2000x128.size (cc2_transform_3 i) (hinb2_3 i)).WholeWords (EltTy.packing .f32)

variable [Facts₀]

def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000x129_S1600000x1_S1600000x129_1_0_0_1 : ScatterDims S50000x129 S1600000x1 S1600000x129 where
  updateWindowDims := [1]
  insertedWindowDims := [0]
  scatterDimsToOperandDims := [0]
  indexVectorDim := 1
  wf := scatter_S50000x129_S1600000x1_S1600000x129_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7_0) S2000x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7_1) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v12_0) S5000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v12_1) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_arg0) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v25) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v29) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x1600000 : Shape := ⟨2, ![2, 1600000]⟩
abbrev S1600000x128 : Shape := ⟨2, ![1600000, 128]⟩
abbrev S128x128 : Shape := ⟨2, ![128, 128]⟩
abbrev S128x256 : Shape := ⟨2, ![128, 256]⟩
abbrev S1x1600000 : Shape := ⟨2, ![1, 1600000]⟩
abbrev S1600000 : Shape := ⟨1, ![1600000]⟩
abbrev S256x128 : Shape := ⟨2, ![256, 128]⟩
abbrev S50000x128 : Shape := ⟨2, ![50000, 128]⟩
abbrev S_ : Shape := ⟨0, ![]⟩
abbrev S1600000x1 : Shape := ⟨2, ![1600000, 1]⟩
abbrev S50000 : Shape := ⟨1, ![50000]⟩
abbrev S50000x1 : Shape := ⟨2, ![50000, 1]⟩

abbrev nBuf : Space → Nat
  | .hbm => 77
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x1600000, .i32⟩
  | .hbm, ⟨2, _⟩ => ⟨S1600000x128, .f32⟩
  | .hbm, ⟨3, _⟩ => ⟨S128x128, .f32⟩
  | .hbm, ⟨4, _⟩ => ⟨S128x256, .f32⟩
  | .hbm, ⟨5, _⟩ => ⟨S128x256, .f32⟩
  | .hbm, ⟨6, _⟩ => ⟨S128x256, .f32⟩
  | .hbm, ⟨7, _⟩ => ⟨S128x256, .f32⟩
  | .hbm, ⟨8, _⟩ => ⟨S128x128, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S256x128, .f32⟩
  | .hbm, ⟨14, _⟩ => ⟨S50000x128, .f32⟩
  | .hbm, ⟨15, _⟩ => ⟨S256x128, .f32⟩
  | .hbm, ⟨16, _⟩ => ⟨S50000x128, .f32⟩
  | .hbm, ⟨17, _⟩ => ⟨S128x128, .f32⟩
  | .hbm, ⟨18, _⟩ => ⟨S1600000x128, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x128, .f32⟩
  | .hbm, ⟨28, _⟩ => ⟨S1600000x128, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x128, .f32⟩
  | .hbm, ⟨38, _⟩ => ⟨S1600000x128, .f32⟩
  | .hbm, ⟨39, _⟩ => ⟨S_, .f32⟩
  | .hbm, ⟨40, _⟩ => ⟨S1600000x128, .f32⟩
  | .hbm, ⟨41, _⟩ => ⟨S1600000x128, .i1⟩
  | .hbm, ⟨42, _⟩ => ⟨S_, .f32⟩
  | .hbm, ⟨43, _⟩ => ⟨S1600000x128, .f32⟩
  | .hbm, ⟨44, _⟩ => ⟨S1600000x128, .f32⟩
  | .hbm, ⟨45, _⟩ => ⟨S1600000x128, .f32⟩
  | .hbm, ⟨46, _⟩ => ⟨S_, .f32⟩
  | .hbm, ⟨47, _⟩ => ⟨S50000x128, .f32⟩
  | .hbm, ⟨48, _⟩ => ⟨S1600000x1, .i32⟩
  | .hbm, ⟨49, _⟩ => ⟨S50000x128, .f32⟩
  | .hbm, ⟨50, _⟩ => ⟨S_, .f32⟩
  | .hbm, ⟨51, _⟩ => ⟨S1600000, .f32⟩
  | .hbm, ⟨52, _⟩ => ⟨S_, .f32⟩
  | .hbm, ⟨53, _⟩ => ⟨S50000, .f32⟩
  | .hbm, ⟨54, _⟩ => ⟨S1600000x1, .i32⟩
  | .hbm, ⟨55, _⟩ => ⟨S50000, .f32⟩
  | .hbm, ⟨56, _⟩ => ⟨S_, .f32⟩
  | .hbm, ⟨57, _⟩ => ⟨S50000, .f32⟩
  | .hbm, ⟨58, _⟩ => ⟨S50000, .f32⟩
  | .hbm, ⟨59, _⟩ => ⟨S50000x1, .f32⟩
  | .hbm, ⟨60, _⟩ => ⟨S50000x128, .f32⟩
  | .hbm, ⟨61, _⟩ => ⟨S50000x128, .f32⟩
  | .hbm, ⟨62, _⟩ => ⟨S128x128, .f32⟩
  | .hbm, ⟨63, _⟩ => ⟨S1600000x128, .f32⟩
  | .hbm, ⟨64, _⟩ => ⟨S256x128, .f32⟩
  | .hbm, ⟨65, _⟩ => ⟨S50000x128, .f32⟩
  | .hbm, ⟨66, _⟩ => ⟨S256x128, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S50000x128, .i1⟩
  | .hbm, ⟨72, _⟩ => ⟨S_, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S50000x128, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_v11 : Ref sig .tc := ⟨.hbm, 21, rfl⟩
abbrev main_c_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_1 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_8 : Ref sig .tc := ⟨.hbm, 69, rfl⟩
abbrev main_v50 : Ref sig .tc := ⟨.hbm, 70, rfl⟩
abbrev main_v51 : Ref sig .tc := ⟨.hbm, 71, rfl⟩
abbrev main_cst_9 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S128x256_S256x128_1_0 : S128x256.Transposes [1, 0] S256x128
  transposes_S128x128_S128x128_1_0 : S128x128.Transposes [1, 0] S128x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x128 : S_.BroadcastsInDim S1600000x128 (![] : Fin 0 → Fin S1600000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  dot_S50000x256_S256x128_S50000x128_1_0_0_1_n_n_wf : DotDims.WF S50000x256 S256x128 S50000x128 [1] [0] [0] [1] [] []
  dot_S1600000x128_S128x128_S1600000x128_1_0_0_1_n_n_wf : DotDims.WF S1600000x128 S128x128 S1600000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000_S1600000x1_S1600000_n_0_0_1_wf : ScatterDims.WF S50000 S1600000x1 S1600000 [] [0] [0] 1

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S1600000x128_S128x128_S1600000x128_1_0_0_1_n_n : DotDims S1600000x128 S128x128 S1600000x128 where
  lhsContracting := [1]
  rhsContracting := [0]
  lhsNonContracting := [0]
  rhsNonContracting := [1]
  lhsBatch := []
  rhsBatch := []
  wf := dot_S1600000x128_S128x128_S1600000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf

class Facts : Prop extends Facts₀ where

variable [Facts]
-- ==== Proof.Spec.lean ====
/-
  The mathematics of one message-passing layer, index by index over the extended reals.

  Nodes carry 256 features, edges 128. With `x · wᵀ` written for the product of a feature matrix with the transpose
  of a weight matrix (row `n`, column `j`: the sum over `k` of `x[n,k] · w[j,k]`) and `ℓ` for the leaky rectifier
  `ℓ(v) = v` when `0 ≤ v`, else `c · v` (`c` the binary value nearest one hundredth), the layer computes
    message[e,:]   = ℓ( edge_attr[e,:] · W_eᵀ + (x · W_huᵀ)[src e,:] + (x · W_hwᵀ)[tgt e,:] )
    attribute[e,:] = message[e,:] · W_attrᵀ
    embedding[n,:] = (x · W_embᵀ)[n,:] + ℓ( (x · W_2ᵀ)[n,:] + mean of the messages arriving at n )
  This file states the matrix products and the rectifier as functions of whole arrays read at an index; the gathers
  and the scattered sums are carried through the proof as the library's own operations and never opened here.
  Two spellings of each product occur: against a weight matrix as given (`w[j,k]`, the reference's transposed
  operand) and against an already transposed, possibly column-wise concatenated matrix (`wf[k, off + j]`, what a
  kernel block multiplies by); `mmCols_concat` and its companions say they are one sum.
-/
import Idealize.ShloMosaic.PureOps.Ideal
import Idealize.ShloMosaic.Lib.ValueIdx

noncomputable section

namespace Cert.Layer

open Idealize.ShloMosaic Idealize.ShloMosaic.ValueIdx

abbrev SN256 : Shape := ⟨2, ![50000, 256]⟩
abbrev SN128 : Shape := ⟨2, ![50000, 128]⟩
abbrev SE128 : Shape := ⟨2, ![1600000, 128]⟩
abbrev SW256 : Shape := ⟨2, ![128, 256]⟩
abbrev SW128 : Shape := ⟨2, ![128, 128]⟩
abbrev SF256 : Shape := ⟨2, ![256, 256]⟩

/-- The leaky rectifier on one extended real: `v` where `0 ≤ v`, else the slope times `v`; the zero and the slope are
    the two binary words both programs carry, read as they stand. -/
def lrelu (v : EReal) : EReal :=
  Scalar.select (FloatOps.cmpf (F := Ideal) (φ := .f32) .oge v (Ideal.ofBits .f32 0x00000000#32)) v
    (Ideal.ofBits .f32 0x3C23D70A#32 * v)

/-- `x · wᵀ` for node features: row `n`, column `j` is `∑ k, x[n,k] · w[j,k]`. -/
def projT (x : SN256.Idx → EReal) (w : SW256.Idx → EReal) : SN128.Idx → EReal :=
  fun i => ∑ k : Fin 256, x (ix2 (i 0) k) * w (ix2 (i 1) k)

/-- `a · wᵀ` for edge features: row `e`, column `j` is `∑ k, a[e,k] · w[j,k]`. -/
def eprojT (a : SE128.Idx → EReal) (w : SW128.Idx → EReal) : SE128.Idx → EReal :=
  fun i => ∑ k : Fin 128, a (ix2 (i 0) k) * w (ix2 (i 1) k)

/-- Columns `off … off + 127` of `x · wf` for a 256 × 256 matrix `wf`: row `n`, column `j` is `∑ k, x[n,k] · wf[k, off + j]`. -/
def mmCols (x : SN256.Idx → EReal) (wf : SF256.Idx → EReal) (off : Nat) (hoff : off + 128 ≤ 256) : SN128.Idx → EReal :=
  fun i => ∑ k : Fin 256, x (ix2 (i 0) k) * wf (ix2 k ⟨off + (i 1).val, by have h : (i 1).val < 128 := (i 1).isLt; omega⟩)

/-- `a · wt` for a 128 × 128 matrix `wt` as it stands: row `e`, column `j` is `∑ k, a[e,k] · wt[k,j]`. -/
def emm (a : SE128.Idx → EReal) (wt : SW128.Idx → EReal) : SE128.Idx → EReal :=
  fun i => ∑ k : Fin 128, a (ix2 (i 0) k) * wt (ix2 k (i 1))

/-- A message from its three summands: the rectifier of the edge term plus the source node's and the target node's. -/
def msgOf (s hs ht : SE128.Idx → EReal) : SE128.Idx → EReal := fun i => lrelu (s i + hs i + ht i)

/-- A node's new embedding: the plain projection plus the rectifier of the second projection plus the aggregate. -/
def embOf (e h2 agg : SN128.Idx → EReal) : SN128.Idx → EReal := fun i => e i + lrelu (h2 i + agg i)

end Cert.Layer

end
-- ==== Proof.KTerms.lean ====
/-
  The host operations of the kernel's program between its three regions, named as functions of whole arrays.

  `srcV` / `tgtV` are the two rows of the edge-index matrix as vectors of node numbers. `nrm` wraps a negative node
  number by adding 50000 and writes the result as a one-column matrix: the start indices of a row gather. `take h v`
  is the row gather of `h` at the wrapped numbers with every row whose wrapped number falls outside 0 … 49999 replaced
  by a filler word. `wcat a b` is the 256 × 256 matrix whose left half is `aᵀ` and right half `bᵀ`. `aggOf msg v`
  scatters the rows of `msg`, each extended by a column of ones, into 50000 rows by the node numbers `v` (a row with a
  number outside 0 … 49999 is dropped), and divides the first 128 columns of each row by the larger of the last column
  and one: the mean of the messages arriving at each node, zero where none arrives.
-/
import proofs.«401195_j34832184770736_3_alg».proof.KernelIdeal
import proofs.«401195_j34832184770736_3_alg».proof.Proof.Gen.KernelIdeal
import Idealize.ShloMosaic.PureOps.Ideal

noncomputable section

namespace Cert.KernelIdeal.Host

open Idealize.ShloMosaic Cert.KernelIdeal Cert.KernelIdeal.Facts₀ Cert.KernelIdeal.Facts

def srcV (ei : IVec S2x1600000 32) : IVec S1600000 32 :=
  shapeCast _ (extractStridedSlice S1x1600000 ![0, 0] ei slices_S2x1600000_S1x1600000_0_0) shapeCasts_S1x1600000_S1600000

def tgtV (ei : IVec S2x1600000 32) : IVec S1600000 32 :=
  shapeCast _ (extractStridedSlice S1x1600000 ![1, 0] ei slices_S2x1600000_S1x1600000_1_0) shapeCasts_S1x1600000_S1600000

def wcat (a b : FVec Ideal S128x256 .f32) : FVec Ideal S256x256 .f32 :=
  concatenate S256x256 1 [⟨S256x128, transpose S256x128 [1, 0] a transposes_S128x256_S256x128_1_0⟩,
    ⟨S256x128, transpose S256x128 [1, 0] b transposes_S128x256_S256x128_1_0⟩] concatenates_S256x128_S256x128_S256x256_d1

def tr128 (w : FVec Ideal S128x128 .f32) : FVec Ideal S128x128 .f32 :=
  transpose S128x128 [1, 0] w transposes_S128x128_S128x128_1_0

def nrm (v : IVec S1600000 32) : IVec S1600000x1 32 :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 50000#32))) v)

def inRange (v : IVec S1600000 32) : IVec S1600000 1 :=
  Host.reduce IntOp.andi
    (andi (cmpi .sge (nrm v) (broadcastInDim S1600000x1 ![] bcast_S_S1600000x1 (constantI S_ 32 0#32)))
      (cmpi .sle (nrm v) (broadcastInDim S1600000x1 ![0, 1] bcast_S1x1_S1600000x1_0_1
        (broadcastInDim S1x1 ![1] bcast_S1_S1x1_1 (constantI S1 32 49999#32)))))
    (constantI S_ 1 1#1) reducesTo_S1600000x1_S1600000_d1 h_S_

def take (h : FVec Ideal S50000x128 .f32) (v : IVec S1600000 32) : FVec Ideal S1600000x128 .f32 :=
  select (broadcastInDim S1600000x128 ![0] bcast_S1600000_S1600000x128_0 (inRange v))
    (Host.gather gather_S50000x128_S1600000x1_S1600000x128_1_0_n_n_0_1_1128 h (nrm v))
    (broadcastInDim S1600000x128 ![] bcast_S_S1600000x128 (constant (F := Ideal) S_ .f32 0x7FC00000#32))

def merged (msg : FVec Ideal S1600000x128 .f32) (v : IVec S1600000 32) : FVec Ideal S50000x129 .f32 :=
  Host.scatterAdd scatter_S50000x129_S1600000x1_S1600000x129_1_0_0_1
    (broadcastInDim S50000x129 ![] bcast_S_S50000x129 (constant (F := Ideal) S_ .f32 0x00000000#32))
    (broadcastInDim S1600000x1 ![0] bcast_S1600000_S1600000x1_0 v)
    (concatenate S1600000x129 1 [⟨S1600000x128, msg⟩,
      ⟨S1600000x1, broadcastInDim S1600000x1 ![] bcast_S_S1600000x1 (constant (F := Ideal) S_ .f32 0x3F800000#32)⟩]
      concatenates_S1600000x128_S1600000x1_S1600000x129_d1)

def sumsOf (msg : FVec Ideal S1600000x128 .f32) (v : IVec S1600000 32) : FVec Ideal S50000x128 .f32 :=
  extractStridedSlice S50000x128 ![0, 0] (merged msg v) slices_S50000x129_S50000x128_0_0

def countsOf (msg : FVec Ideal S1600000x128 .f32) (v : IVec S1600000 32) : FVec Ideal S50000 .f32 :=
  shapeCast _ (extractStridedSlice S50000x1 ![0, 128] (merged msg v) slices_S50000x129_S50000x1_0_128) shapeCasts_S50000x1_S50000

def meanOf (sums : FVec Ideal S50000x128 .f32) (counts : FVec Ideal S50000 .f32) : FVec Ideal S50000x128 .f32 :=
  Host.divf sums (broadcastInDim S50000x128 ![0, 1] bcast_S50000x1_S50000x128_0_1
    (broadcastInDim S50000x1 ![0] bcast_S50000_S50000x1_0
      (maximumf counts (broadcastInDim S50000 ![] bcast_S_S50000 (constant (F := Ideal) S_ .f32 0x3F800000#32)))))

def aggOf (msg : FVec Ideal S1600000x128 .f32) (v : IVec S1600000 32) : FVec Ideal S50000x128 .f32 :=
  meanOf (sumsOf msg v) (countsOf msg v)

end Cert.KernelIdeal.Host

end
-- ==== Proof.RTerms.lean ====
/-
  The reference program's result terms, named stage by stage as functions of whole arrays.

  `srcV` / `tgtV`: the two rows of the edge-index matrix. `nrm`: a negative node number wrapped by adding 50000, as a
  one-column matrix of gather start indices. `dotN x w`, `dotE a w`: the host's product of features with a transposed
  weight matrix. `lreluE`, `lreluN`: the leaky rectifier on an edge-sized and a node-sized array. `msgR`: the messages.
  `sumsR`, `cntR`: the messages, and a vector of ones, scattered by target node. `meanOf`: sums over the larger of
  count and one. `attrsR`, `embR`: the two results. `res_out1_eq` / `res_out0_eq`: the run's composed terms are these.
-/
import proofs.«401195_j34832184770736_3_alg».proof.Proof.Gen.ReferenceIdeal.Run
import Idealize.ShloMosaic.PureOps.Ideal

noncomputable section

namespace Cert.ReferenceIdeal.Host

open Idealize.ShloMosaic Idealize.ShloMosaic.TcCoe Idealize.SL.Sem
open Cert.ReferenceIdeal Cert.ReferenceIdeal.Facts₀ Cert.ReferenceIdeal.Facts

def srcV (ei : IVec S2x1600000 32) : IVec S1600000 32 :=
  shapeCast _ (extractStridedSlice S1x1600000 ![0, 0] ei slices_S2x1600000_S1x1600000_0_0) shapeCasts_S1x1600000_S1600000

def tgtV (ei : IVec S2x1600000 32) : IVec S1600000 32 :=
  shapeCast _ (extractStridedSlice S1x1600000 ![1, 0] ei slices_S2x1600000_S1x1600000_1_0) shapeCasts_S1x1600000_S1600000

def nrm (v : IVec S1600000 32) : IVec S1600000x1 32 :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 50000#32))) v)

def dotN (x : FVec Ideal S50000x256 .f32) (w : FVec Ideal S128x256 .f32) : FVec Ideal S50000x128 .f32 :=
  Host.dotGeneral dot_S50000x256_S256x128_S50000x128_1_0_0_1_n_n none x (transpose S256x128 [1, 0] w transposes_S128x256_S256x128_1_0)

def dotE (a : FVec Ideal S1600000x128 .f32) (w : FVec Ideal S128x128 .f32) : FVec Ideal S1600000x128 .f32 :=
  Host.dotGeneral dot_S1600000x128_S128x128_S1600000x128_1_0_0_1_n_n none a (transpose S128x128 [1, 0] w transposes_S128x128_S128x128_1_0)

def lreluE (p : FVec Ideal S1600000x128 .f32) : FVec Ideal S1600000x128 .f32 :=
  select (cmpf .oge p (broadcastInDim S1600000x128 ![] bcast_S_S1600000x128 (constant (F := Ideal) S_ .f32 0x00000000#32))) p
    (mulf (broadcastInDim S1600000x128 ![] bcast_S_S1600000x128 (constant (F := Ideal) S_ .f32 0x3C23D70A#32)) p)

def lreluN (p : FVec Ideal S50000x128 .f32) : FVec Ideal S50000x128 .f32 :=
  select (cmpf .oge p (broadcastInDim S50000x128 ![] bcast_S_S50000x128 (constant (F := Ideal) S_ .f32 0x00000000#32))) p
    (mulf (broadcastInDim S50000x128 ![] bcast_S_S50000x128 (constant (F := Ideal) S_ .f32 0x3C23D70A#32)) p)

def gath (h : FVec Ideal S50000x128 .f32) (i : IVec S1600000x1 32) : FVec Ideal S1600000x128 .f32 :=
  Host.gather gather_S50000x128_S1600000x1_S1600000x128_1_0_n_n_0_1_1128 h i

def msgR (x : FVec Ideal S50000x256 .f32) (ei : IVec S2x1600000 32) (ea : FVec Ideal S1600000x128 .f32)
    (We : FVec Ideal S128x128 .f32) (Whu Whw : FVec Ideal S128x256 .f32) : FVec Ideal S1600000x128 .f32 :=
  lreluE (addf (addf (dotE ea We) (gath (dotN x Whu) (nrm (srcV ei)))) (gath (dotN x Whw) (nrm (tgtV ei))))

def sumsR (msg : FVec Ideal S1600000x128 .f32) (v : IVec S1600000 32) : FVec Ideal S50000x128 .f32 :=
  Host.scatterAdd scatter_S50000x128_S1600000x1_S1600000x128_1_0_0_1
    (broadcastInDim S50000x128 ![] bcast_S_S50000x128 (constant (F := Ideal) S_ .f32 0x00000000#32))
    (broadcastInDim S1600000x1 ![0] bcast_S1600000_S1600000x1_0 v) msg

def cntR (v : IVec S1600000 32) : FVec Ideal S50000 .f32 :=
  Host.scatterAdd scatter_S50000_S1600000x1_S1600000_n_0_0_1
    (broadcastInDim S50000 ![] bcast_S_S50000 (constant (F := Ideal) S_ .f32 0x00000000#32))
    (broadcastInDim S1600000x1 ![0] bcast_S1600000_S1600000x1_0 v)
    (broadcastInDim S1600000 ![] bcast_S_S1600000 (constant (F := Ideal) S_ .f32 0x3F800000#32))

def meanOf (sums : FVec Ideal S50000x128 .f32) (counts : FVec Ideal S50000 .f32) : FVec Ideal S50000x128 .f32 :=
  Host.divf sums (broadcastInDim S50000x128 ![0, 1] bcast_S50000x1_S50000x128_0_1
    (broadcastInDim S50000x1 ![0] bcast_S50000_S50000x1_0
      (maximumf counts (broadcastInDim S50000 ![] bcast_S_S50000 (constant (F := Ideal) S_ .f32 0x3F800000#32)))))

def attrsR (x : FVec Ideal S50000x256 .f32) (ei : IVec S2x1600000 32) (ea : FVec Ideal S1600000x128 .f32)
    (We : FVec Ideal S128x128 .f32) (Whu Whw : FVec Ideal S128x256 .f32) (Wattr : FVec Ideal S128x128 .f32) :
    FVec Ideal S1600000x128 .f32 :=
  dotE (msgR x ei ea We Whu Whw) Wattr

def embR (x : FVec Ideal S50000x256 .f32) (ei : IVec S2x1600000 32) (ea : FVec Ideal S1600000x128 .f32)
    (We : FVec Ideal S128x128 .f32) (Whu Whw W2 Wemb : FVec Ideal S128x256 .f32) : FVec Ideal S50000x128 .f32 :=
  addf (dotN x Wemb) (lreluN (addf (dotN x W2) (meanOf (sumsR (msgR x ei ea We Whu Whw) (tgtV ei)) (cntR (tgtV ei)))))

variable (m : (ℓ : Loc nD τ sig) → Buf (Elt Ideal) ℓ) (c : Dev nD)

theorem res_out1_eq : Value.res_out1 (F := Ideal) m c
    = attrsR (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg8)) := rfl

theorem res_out0_eq : Value.res_out0 (F := Ideal) m c
    = embR (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) := rfl

end Cert.ReferenceIdeal.Host

end
-- ==== Proof.Region0.lean ====
/-
  The value of the node projection region: every node's 256 features times a 256 × 256 weight matrix, the product's
  columns 0 … 127 stored to one array and its columns 128 … 255 to another.

  The region walks 25 grid points; point t holds rows 2000·t … 2000·t + 1999 of the feature array, the whole weight
  matrix, and the same rows of the two outputs. This file reads one entry of a block's product as the sum over the
  contraction index, reads the two stored halves as column ranges of that product, identifies what each point writes
  back with the block's view of the whole-array product, and, the blocks covering every row, concludes that each
  output array ends holding its 128 columns of the whole product.
-/
import proofs.«401195_j34832184770736_3_alg».proof.Proof.Gen.KernelIdeal.Frame
import proofs.«401195_j34832184770736_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Regions

open Idealize.ShloMosaic Idealize.ShloMosaic.TcCoe Idealize.SL.Sem Idealize.ShloMosaic.ValueIdx
open Cert.KernelIdeal Cert.KernelIdeal.Gen Cert.Layer

variable (V : (c : Dev nD) → (b : Ref sig .tc) → Buf (Elt Ideal) ((c : Thread nD τ).loc b))

/-! ## One entry of a block's product

The body multiplies its 2000 × 256 block of node features by the whole 256 × 256 weight matrix, both read in a
narrower float format (the identity on extended reals), into a zero accumulator: entry (p, q) of the product is
the sum over k of x[p,k] · w[k,q]. -/

/-- The left operand's row is the output's row. -/
theorem lhs_blockDot_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
/-- The left operand's column is the contraction index. -/
theorem lhs_blockDot_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
/-- The right operand's row is the contraction index. -/
theorem rhs_blockDot_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
/-- The right operand's column is the output's column. -/
theorem rhs_blockDot_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- Entry (p, q) of the block's product: the sum over k of x[p,k] · w[k,q]. -/
theorem blockProduct_apply (x0 : Vec Ideal S2000x256 .f32) (x1 : Vec Ideal S256x256 .f32) (p : Fin 2000) (q : Fin 256) :
    k0_pay1 (F := Ideal) x0 x1 (ix2 p q) = ∑ k : Fin 256, x0 (ix2 p k) * x1 (ix2 k q) := by
  unfold k0_pay1
  simp only [matmul]
  refine (Ideal.matmul_constant_zero_apply dot_S2000x256_S256x256_S2000x256_1_0_0_1_n_n none _ _ (ix2 p q)).trans ?_
  rw [← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q) ((contrEquiv1 dot_S2000x256_S256x256_S2000x256_1_0_0_1_n_n 256 rfl rfl).symm k) = ix2 p k := funext fun a => Fin.ext (by
    match a with
    | ⟨0, _⟩ => exact lhs_blockDot_0 _ _
    | ⟨1, _⟩ => exact (lhs_blockDot_1 _ _).trans hk)
  have er : dot_S2000x256_S256x256_S2000x256_1_0_0_1_n_n.rhsIdx (ix2 p q) ((contrEquiv1 dot_S2000x256_S256x256_S2000x256_1_0_0_1_n_n 256 rfl rfl).symm k) = ix2 k q := funext fun a => Fin.ext (by
    match a with
    | ⟨0, _⟩ => exact (rhs_blockDot_0 _ _).trans hk
    | ⟨1, _⟩ => exact rhs_blockDot_1 _ _)
  rw [el, er, shapeCast_self]
  rfl

/-! ## The two stored halves at an entry

The first output block is columns 0 … 127 of the block's product, the second columns 128 … 255. -/

/-- Entry (p, q) of the first stored block, against any arrays X, W whose rows the blocks hold: row r of X times
    column 0 + q of W. -/
theorem lowHalf_apply (X : SN256.Idx → EReal) (W : SF256.Idx → EReal)
    (x0 : Vec Ideal S2000x256 .f32) (x1 : Vec Ideal S256x256 .f32) (p : Fin 2000) (q : Fin 128) (r : Fin 50000)
    (h0 : ∀ k : Fin 256, x0 (ix2 p k) = X (ix2 r k))
    (h1 : ∀ k l : Fin 256, x1 (ix2 k l) = W (ix2 k l)) :
    k0_pay2 (F := Ideal) x0 x1 (ix2 p q) = mmCols X W 0 (by decide) (ix2 r q) := by
  unfold k0_pay2
  refine (slice2_axis1_apply 0 (k0_pay1 (F := Ideal) x0 x1) _ p q ⟨0 + q.val, by have := q.isLt; omega⟩ rfl).trans ?_
  refine (blockProduct_apply x0 x1 p _).trans ?_
  unfold mmCols
  refine Finset.sum_congr rfl fun k _ => ?_
  rw [h0, h1]

/-- Entry (p, q) of the second stored block: row r of X times column 128 + q of W. -/
theorem highHalf_apply (X : SN256.Idx → EReal) (W : SF256.Idx → EReal)
    (x0 : Vec Ideal S2000x256 .f32) (x1 : Vec Ideal S256x256 .f32) (p : Fin 2000) (q : Fin 128) (r : Fin 50000)
    (h0 : ∀ k : Fin 256, x0 (ix2 p k) = X (ix2 r k))
    (h1 : ∀ k l : Fin 256, x1 (ix2 k l) = W (ix2 k l)) :
    k0_pay3 (F := Ideal) x0 x1 (ix2 p q) = mmCols X W 128 (by decide) (ix2 r q) := by
  unfold k0_pay3
  refine (slice2_axis1_apply 128 (k0_pay1 (F := Ideal) x0 x1) _ p q ⟨128 + q.val, by have := q.isLt; omega⟩ rfl).trans ?_
  refine (blockProduct_apply x0 x1 p _).trans ?_
  unfold mmCols
  refine Finset.sum_congr rfl fun k _ => ?_
  rw [h0, h1]

/-! ## From blocks to the arrays

Grid point t holds rows 2000·t … 2000·t + 1999 of the node features and of each output, and the whole weight matrix. -/

theorem zeroOffsets : (![0, 0] : Fin 2 → Nat) = fun _ => 0 := funext fun a => by fin_cases a <;> rfl

/-- The printed block index maps, decided over the grid: the row-tiled arrays' block row is the point, every block
    column is 0, and the weight matrix's one block is block (0, 0). -/
theorem blockIndex_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What grid point t writes back to the first output is rows 2000·t … 2000·t + 1999 of columns 0 … 127 of the whole
    product: the feature block's row p is the array's row 2000·t + p, the weight block is the weight matrix, and the
    output block's entry (p, q) lands at (2000·t + p, q). -/
theorem flushed0_2_eq (c : Dev nD) (t : Fin cfg0.N) :
    (dat0 (F := Ideal) V c).flushed 2 t
      = ((cfg0.win 2).blk t).view.read (Elt Ideal) (mmCols (V c main_arg0) (V c main_v6) 0 (by decide)) := by
  show (cfg0.win 2).cut (grid0.coords t) ((dat0 V c).after 2 t) = _
  rw [after0_2]
  unfold out0_2
  rw [View.canon_unit_zero zeroOffsets]
  simp only [View.ld_unit_zero (S := S2000x256) zeroOffsets, View.ld_unit_zero (S := S256x256) zeroOffsets]
  obtain ⟨e00, e01, e10, e11, e20, e21, e30, e31⟩ := blockIndex_facts t
  funext j
  obtain ⟨p, q, rfl⟩ : ∃ (p : Fin 2000) (q : Fin 128), j = ix2 p q := ⟨j 0, j 1, eq_ix2 j⟩
  have hp : p.val < 2000 := p.isLt
  have hq : q.val < 128 := q.isLt
  have ht : t.val < 25 := t.isLt
  show k0_pay2 (F := Ideal) (iblk0 V c 0 t) (iblk0 V c 1 t) (ix2 p q)
    = mmCols (V c main_arg0) (V c main_v6) 0 (by decide) (((cfg0.win 2).blk t).view.emb (ix2 p q))
  refine (lowHalf_apply (V c main_arg0) (V c main_v6) (iblk0 V c 0 t) (iblk0 V c 1 t) p q ⟨t.val * 2000 + p.val, by omega⟩ (fun k => ?_) (fun k l => ?_)).trans ?_
  · unfold iblk0
    rw [View.read_apply]
    show V c main_arg0 (((cfg0.win 0).blk t).view.emb (ix2 p k)) = V c main_arg0 (ix2 ⟨t.val * 2000 + p.val, by omega⟩ k)
    refine congrArg _ (funext fun a => Fin.ext ?_)
    match a with
    | ⟨0, _⟩ => show win0_0.index t (0 : Fin 2) * 2000 + 1 * p.val = t.val * 2000 + p.val; omega
    | ⟨1, _⟩ => show win0_0.index t (1 : Fin 2) * 256 + 1 * k.val = k.val; omega
  · unfold iblk0
    rw [View.read_apply]
    show V c main_v6 (((cfg0.win 1).blk t).view.emb (ix2 k l)) = V c main_v6 (ix2 k l)
    refine congrArg _ (funext fun a => Fin.ext ?_)
    match a with
    | ⟨0, _⟩ => show win0_1.index t (0 : Fin 2) * 256 + 1 * k.val = k.val; omega
    | ⟨1, _⟩ => show win0_1.index t (1 : Fin 2) * 256 + 1 * l.val = l.val; omega
  · refine congrArg _ (funext fun a => Fin.ext ?_)
    match a with
    | ⟨0, _⟩ => show t.val * 2000 + p.val = win0_2.index t (0 : Fin 2) * 2000 + 1 * p.val; omega
    | ⟨1, _⟩ => show q.val = win0_2.index t (1 : Fin 2) * 128 + 1 * q.val; omega

/-- An entry of the array is in point t's block iff each coordinate is in the block's range on its axis. -/
theorem mem_block0_2 (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v7_0).slice (win0_2.rect t)).set ↔ _
  rw [View.set_slice_whole, Rect.mem_set_unit]
  exact Iff.rfl

/-- Every entry is in some written-back block: row r is in the block of point r / 2000. -/
theorem rows_covered0_2 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  have hlt : (i 0).val / 2000 < cfg0.N := by rw [hN]; omega
  obtain ⟨e00, e01, e10, e11, e20, e21, e30, e31⟩ := blockIndex_facts ⟨(i 0).val / 2000, hlt⟩
  refine ⟨⟨(i 0).val / 2000, hlt⟩, flush0_2 _, ?_⟩
  rw [mem_block0_2]
  intro a
  match a with
  | ⟨0, _⟩ =>
    show win0_2.index ⟨(i 0).val / 2000, hlt⟩ (0 : Fin 2) * 2000 ≤ (i 0).val ∧ (i 0).val < win0_2.index ⟨(i 0).val / 2000, hlt⟩ (0 : Fin 2) * 2000 + 2000
    rw [e20]
    show (i 0).val / 2000 * 2000 ≤ (i 0).val ∧ (i 0).val < (i 0).val / 2000 * 2000 + 2000
    omega
  | ⟨1, _⟩ =>
    show win0_2.index ⟨(i 0).val / 2000, hlt⟩ (1 : Fin 2) * 128 ≤ (i 1).val ∧ (i 1).val < win0_2.index ⟨(i 0).val / 2000, hlt⟩ (1 : Fin 2) * 128 + 128
    rw [e21]
    omega

/-- What grid point t writes back to the second output is rows 2000·t … 2000·t + 1999 of columns 128 … 255 of the whole
    product: the feature block's row p is the array's row 2000·t + p, the weight block is the weight matrix, and the
    output block's entry (p, q) lands at (2000·t + p, q). -/
theorem flushed0_3_eq (c : Dev nD) (t : Fin cfg0.N) :
    (dat0 (F := Ideal) V c).flushed 3 t
      = ((cfg0.win 3).blk t).view.read (Elt Ideal) (mmCols (V c main_arg0) (V c main_v6) 128 (by decide)) := by
  show (cfg0.win 3).cut (grid0.coords t) ((dat0 V c).after 3 t) = _
  rw [after0_3]
  unfold out0_3
  rw [View.canon_unit_zero zeroOffsets]
  simp only [View.ld_unit_zero (S := S2000x256) zeroOffsets, View.ld_unit_zero (S := S256x256) zeroOffsets]
  obtain ⟨e00, e01, e10, e11, e20, e21, e30, e31⟩ := blockIndex_facts t
  funext j
  obtain ⟨p, q, rfl⟩ : ∃ (p : Fin 2000) (q : Fin 128), j = ix2 p q := ⟨j 0, j 1, eq_ix2 j⟩
  have hp : p.val < 2000 := p.isLt
  have hq : q.val < 128 := q.isLt
  have ht : t.val < 25 := t.isLt
  show k0_pay3 (F := Ideal) (iblk0 V c 0 t) (iblk0 V c 1 t) (ix2 p q)
    = mmCols (V c main_arg0) (V c main_v6) 128 (by decide) (((cfg0.win 3).blk t).view.emb (ix2 p q))
  refine (highHalf_apply (V c main_arg0) (V c main_v6) (iblk0 V c 0 t) (iblk0 V c 1 t) p q ⟨t.val * 2000 + p.val, by omega⟩ (fun k => ?_) (fun k l => ?_)).trans ?_
  · unfold iblk0
    rw [View.read_apply]
    show V c main_arg0 (((cfg0.win 0).blk t).view.emb (ix2 p k)) = V c main_arg0 (ix2 ⟨t.val * 2000 + p.val, by omega⟩ k)
    refine congrArg _ (funext fun a => Fin.ext ?_)
    match a with
    | ⟨0, _⟩ => show win0_0.index t (0 : Fin 2) * 2000 + 1 * p.val = t.val * 2000 + p.val; omega
    | ⟨1, _⟩ => show win0_0.index t (1 : Fin 2) * 256 + 1 * k.val = k.val; omega
  · unfold iblk0
    rw [View.read_apply]
    show V c main_v6 (((cfg0.win 1).blk t).view.emb (ix2 k l)) = V c main_v6 (ix2 k l)
    refine congrArg _ (funext fun a => Fin.ext ?_)
    match a with
    | ⟨0, _⟩ => show win0_1.index t (0 : Fin 2) * 256 + 1 * k.val = k.val; omega
    | ⟨1, _⟩ => show win0_1.index t (1 : Fin 2) * 256 + 1 * l.val = l.val; omega
  · refine congrArg _ (funext fun a => Fin.ext ?_)
    match a with
    | ⟨0, _⟩ => show t.val * 2000 + p.val = win0_3.index t (0 : Fin 2) * 2000 + 1 * p.val; omega
    | ⟨1, _⟩ => show q.val = win0_3.index t (1 : Fin 2) * 128 + 1 * q.val; omega

/-- An entry of the array is in point t's block iff each coordinate is in the block's range on its axis. -/
theorem mem_block0_3 (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v7_1).slice (win0_3.rect t)).set ↔ _
  rw [View.set_slice_whole, Rect.mem_set_unit]
  exact Iff.rfl

/-- Every entry is in some written-back block: row r is in the block of point r / 2000. -/
theorem rows_covered0_3 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 25 := N_0
  have hlt : (i 0).val / 2000 < cfg0.N := by rw [hN]; omega
  obtain ⟨e00, e01, e10, e11, e20, e21, e30, e31⟩ := blockIndex_facts ⟨(i 0).val / 2000, hlt⟩
  refine ⟨⟨(i 0).val / 2000, hlt⟩, flush0_3 _, ?_⟩
  rw [mem_block0_3]
  intro a
  match a with
  | ⟨0, _⟩ =>
    show win0_3.index ⟨(i 0).val / 2000, hlt⟩ (0 : Fin 2) * 2000 ≤ (i 0).val ∧ (i 0).val < win0_3.index ⟨(i 0).val / 2000, hlt⟩ (0 : Fin 2) * 2000 + 2000
    rw [e30]
    show (i 0).val / 2000 * 2000 ≤ (i 0).val ∧ (i 0).val < (i 0).val / 2000 * 2000 + 2000
    omega
  | ⟨1, _⟩ =>
    show win0_3.index ⟨(i 0).val / 2000, hlt⟩ (1 : Fin 2) * 128 ≤ (i 1).val ∧ (i 1).val < win0_3.index ⟨(i 0).val / 2000, hlt⟩ (1 : Fin 2) * 128 + 128
    rw [e31]
    omega

/-! ## The two output arrays after the region -/

theorem final0_2 (c : Dev nD) :
    (dat0 (F := Ideal) V c).arrAt 2 cfg0.N = mmCols (V c main_arg0) (V c main_v6) 0 (by decide) :=
  (dat0 (F := Ideal) V c).arrAt_eq_of_cover 2 (mmCols (V c main_arg0) (V c main_v6) 0 (by decide))
    (fun t _ => flushed0_2_eq V c t) rows_covered0_2

theorem final0_3 (c : Dev nD) :
    (dat0 (F := Ideal) V c).arrAt 3 cfg0.N = mmCols (V c main_arg0) (V c main_v6) 128 (by decide) :=
  (dat0 (F := Ideal) V c).arrAt_eq_of_cover 3 (mmCols (V c main_arg0) (V c main_v6) 128 (by decide))
    (fun t _ => flushed0_3_eq V c t) rows_covered0_3

end Cert.KernelIdeal.Regions

end
-- ==== Proof.Region1.lean ====
import proofs.«401195_j34832184770736_3_alg».proof.Proof.Gen.KernelIdeal.Frame
import proofs.«401195_j34832184770736_3_alg».proof.Proof.Spec
import Idealize.ShloMosaic.Lib.ValueIdx
import Idealize.ShloMosaic.Lib.Pipeline.Value
import Idealize.ShloMosaic.PureOps.Ideal.Laws
noncomputable section
namespace Cert.KernelIdeal.Regions
open Idealize.ShloMosaic Idealize.ShloMosaic.TcCoe Idealize.SL.Sem Idealize.ShloMosaic.ValueIdx
open Cert.KernelIdeal Cert.KernelIdeal.Gen Cert.Layer
variable (V : (c : Dev nD) → (b : Ref sig .tc) → Buf (Elt Ideal) ((c : Thread nD τ).loc b))

/-! The auxiliary lemmas of the edge region live in a namespace of their own, so that their names meet no other region's. -/
namespace EdgeFuse

/-! ## The block product at an index

A block of 5000 rows of 128 features times a 128 × 128 matrix held as it stands: row `p`, column `q` of the
product is the sum over `k` of `a[p,k] · w[k,q]`. The four lemmas below read the operand indices of the
product's dimension numbers on each axis. -/

theorem blockDot_lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem blockDot_lhs_contr (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem blockDot_rhs_contr (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem blockDot_rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into a zero accumulator, at row `p` and column `q`: the sum over the 128 contracted
    features of the operands' products. -/
theorem blockProd_apply (a : FVec Ideal S5000x128 .bf16) (w : FVec Ideal S128x128 .bf16) (p : Fin 5000) (q : Fin 128) :
    matmul (F := Ideal) dot_S5000x128_S128x128_S5000x128_1_0_0_1_n_n none a w (constant (F := Ideal) S5000x128 .f32 0x00000000#32) (ix2 p q)
      = ∑ k : Fin 128, a (ix2 p k) * w (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact blockDot_lhs_row _ _
    | ⟨1, _⟩ => exact (blockDot_lhs_contr _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (blockDot_rhs_contr _ _).trans hk
    | ⟨1, _⟩ => exact blockDot_rhs_col _ _)
  rw [el, er]

/-- The rectified sum a point stores, at row `p` and column `q` of its block: the rectifier of the block
    product of the edge features with the first matrix plus the two gathered node terms there. A change of float
    format is the identity on the extended reals, and a cast of a shape to itself is the identity. -/
theorem rectSum_apply (x0 : Vec Ideal S5000x128 .f32) (x3 : Vec Ideal S128x128 .f32) (x1 x2 : Vec Ideal S5000x128 .f32)
    (p : Fin 5000) (q : Fin 128) :
    k1_pay1 (F := Ideal) x0 x3 x1 x2 (ix2 p q)
      = lrelu ((∑ k : Fin 128, x0 (ix2 p k) * x3 (ix2 k q)) + x1 (ix2 p q) + x2 (ix2 p q)) := by
  unfold k1_pay1
  simp only [shapeCast_self]
  refine Eq.trans ?_ (congrArg (fun s => lrelu (s + x1 (ix2 p q) + x2 (ix2 p q))) (blockProd_apply (truncf .bf16 x0 bitsLt_bf16_f32) (truncf .bf16 x3 bitsLt_bf16_f32) p q))
  rfl

/-- The attribute product a point stores, at row `p` and column `q` of its block: the block product of the
    rectified sum's row `p` with the second matrix's column `q`. -/
theorem attrProd_apply (x0 : Vec Ideal S5000x128 .f32) (x3 : Vec Ideal S128x128 .f32) (x1 x2 : Vec Ideal S5000x128 .f32)
    (x4 : Vec Ideal S128x128 .f32) (p : Fin 5000) (q : Fin 128) :
    k1_pay2 (F := Ideal) x0 x3 x1 x2 x4 (ix2 p q)
      = ∑ k : Fin 128, k1_pay1 (F := Ideal) x0 x3 x1 x2 (ix2 p k) * x4 (ix2 k q) := by
  unfold k1_pay2
  simp only [shapeCast_self]
  exact blockProd_apply (truncf .bf16 (k1_pay1 (F := Ideal) x0 x3 x1 x2) bitsLt_bf16_f32) (truncf .bf16 x4 bitsLt_bf16_f32) p q

/-! ## From blocks to the arrays

Point `t` of the 320 works on rows `5000 t … 5000 t + 4999` of each row-tiled array and on the two weight matrices
whole. -/

/-- The five arrays the region finds, at their literal types. -/
abbrev edgeFeat (c : Dev nD) : SE128.Idx → EReal := V c main_arg2
abbrev srcTerm (c : Dev nD) : SE128.Idx → EReal := V c main_v8
abbrev tgtTerm (c : Dev nD) : SE128.Idx → EReal := V c main_v9
abbrev edgeW (c : Dev nD) : SW128.Idx → EReal := V c main_v10
abbrev attrW (c : Dev nD) : SW128.Idx → EReal := V c main_v11

theorem zero_offsets : (![0, 0] : Fin 2 → Nat) = fun _ => 0 := funext fun a => by fin_cases a <;> rfl

/-- The printed block index maps, decided once over the 320 points: a row-tiled array's block at point `t` is block
    `(t, 0)`, a weight matrix's is `(0, 0)`. -/
theorem blockIdx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- The edge features' block at point `t`: row `p` of the block is row `5000 t + p` of the array. -/
theorem edgeBlock_apply (c : Dev nD) (t : Fin cfg1.N) (p : Fin 5000) (k : Fin 128) (r : Fin 1600000)
    (hr : r.val = t.val * 5000 + p.val) :
    (iblk1 V c 0 t : Vec Ideal S5000x128 .f32) (ix2 p k) = edgeFeat V c (ix2 r k) := by
  obtain ⟨e0, e1, -⟩ := blockIdx_facts t
  unfold iblk1
  rw [View.read_apply]
  show V c main_arg2 _ = V c main_arg2 _
  congr 1
  funext a
  apply Fin.ext
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- The source nodes' gathered term, the same rows. -/
theorem srcBlock_apply (c : Dev nD) (t : Fin cfg1.N) (p : Fin 5000) (k : Fin 128) (r : Fin 1600000)
    (hr : r.val = t.val * 5000 + p.val) :
    (iblk1 V c 1 t : Vec Ideal S5000x128 .f32) (ix2 p k) = srcTerm V c (ix2 r k) := by
  obtain ⟨-, -, e0, e1, -⟩ := blockIdx_facts t
  unfold iblk1
  rw [View.read_apply]
  show V c main_v8 _ = V c main_v8 _
  congr 1
  funext a
  apply Fin.ext
  match a with
  | ⟨0, _⟩ => show win1_1.index t (0 : Fin 2) * 5000 + 1 * p.val = r.val; rw [e0, hr]; omega
  | ⟨1, _⟩ => show win1_1.index t (1 : Fin 2) * 128 + 1 * k.val = k.val; rw [e1]; omega

/-- The target nodes' gathered term, the same rows. -/
theorem tgtBlock_apply (c : Dev nD) (t : Fin cfg1.N) (p : Fin 5000) (k : Fin 128) (r : Fin 1600000)
    (hr : r.val = t.val * 5000 + p.val) :
    (iblk1 V c 2 t : Vec Ideal S5000x128 .f32) (ix2 p k) = tgtTerm V c (ix2 r k) := by
  obtain ⟨-, -, -, -, e0, e1, -⟩ := blockIdx_facts t
  unfold iblk1
  rw [View.read_apply]
  show V c main_v9 _ = V c main_v9 _
  congr 1
  funext a
  apply Fin.ext
  match a with
  | ⟨0, _⟩ => show win1_2.index t (0 : Fin 2) * 5000 + 1 * p.val = r.val; rw [e0, hr]; omega
  | ⟨1, _⟩ => show win1_2.index t (1 : Fin 2) * 128 + 1 * k.val = k.val; rw [e1]; omega

/-- The first weight matrix is held whole at every point. -/
theorem edgeWeight_apply (c : Dev nD) (t : Fin cfg1.N) (k q : Fin 128) :
    (iblk1 V c 3 t : Vec Ideal S128x128 .f32) (ix2 k q) = edgeW V c (ix2 k q) := by
  obtain ⟨-, -, -, -, -, -, e0, e1, -⟩ := blockIdx_facts t
  unfold iblk1
  rw [View.read_apply]
  show V c main_v10 _ = V c main_v10 _
  congr 1
  funext a
  apply Fin.ext
  match a with
  | ⟨0, _⟩ => show win1_3.index t (0 : Fin 2) * 128 + 1 * k.val = k.val; rw [e0]; omega
  | ⟨1, _⟩ => show win1_3.index t (1 : Fin 2) * 128 + 1 * q.val = q.val; rw [e1]; omega

/-- So is the second. -/
theorem attrWeight_apply (c : Dev nD) (t : Fin cfg1.N) (k q : Fin 128) :
    (iblk1 V c 4 t : Vec Ideal S128x128 .f32) (ix2 k q) = attrW V c (ix2 k q) := by
  obtain ⟨-, -, -, -, -, -, -, -, e0, e1, -⟩ := blockIdx_facts t
  unfold iblk1
  rw [View.read_apply]
  show V c main_v11 _ = V c main_v11 _
  congr 1
  funext a
  apply Fin.ext
  match a with
  | ⟨0, _⟩ => show win1_4.index t (0 : Fin 2) * 128 + 1 * k.val = k.val; rw [e0]; omega
  | ⟨1, _⟩ => show win1_4.index t (1 : Fin 2) * 128 + 1 * q.val = q.val; rw [e1]; omega

/-- The rectified sum point `t` computes at row `p`, column `q` of its block is the message of edge `5000 t + p`,
    feature `q`. -/
theorem msg_at (c : Dev nD) (t : Fin cfg1.N) (p : Fin 5000) (q : Fin 128) (r : Fin 1600000)
    (hr : r.val = t.val * 5000 + p.val) :
    k1_pay1 (F := Ideal) (iblk1 V c 0 t) (iblk1 V c 3 t) (iblk1 V c 1 t) (iblk1 V c 2 t) (ix2 p q)
      = msgOf (emm (edgeFeat V c) (edgeW V c)) (srcTerm V c) (tgtTerm V c) (ix2 r q) := by
  refine (rectSum_apply (iblk1 V c 0 t) (iblk1 V c 3 t) (iblk1 V c 1 t) (iblk1 V c 2 t) p q).trans ?_
  show lrelu _ = lrelu ((∑ k : Fin 128, edgeFeat V c (ix2 r k) * edgeW V c (ix2 k q)) + srcTerm V c (ix2 r q) + tgtTerm V c (ix2 r q))
  rw [srcBlock_apply V c t p q r hr, tgtBlock_apply V c t p q r hr]
  refine congrArg (fun s => lrelu (s + _ + _)) (Finset.sum_congr rfl fun k _ => ?_)
  rw [edgeBlock_apply V c t p k r hr, edgeWeight_apply V c t k q]

/-- WHAT POINT `t` WRITES BACK to the message array is block `t` of the messages. -/
theorem flushed5_eq (c : Dev nD) (t : Fin cfg1.N) :
    (dat1 (F := Ideal) V c).flushed 5 t = ((cfg1.win 5).blk t).view.read (Elt Ideal) (msgOf (emm (V c main_arg2) (V c main_v10)) (V c main_v8) (V c main_v9)) := by
  show (cfg1.win 5).cut (grid1.coords t) ((dat1 V c).after 5 t) = _
  rw [after1_5]
  unfold out1_5
  rw [View.canon_unit_zero zero_offsets]
  simp only [View.ld_unit_zero (S := S5000x128) zero_offsets, View.ld_unit_zero (S := S128x128) zero_offsets]
  funext j
  obtain ⟨p, q, rfl⟩ : ∃ (p : Fin 5000) (q : Fin 128), j = ix2 p q := ⟨j 0, j 1, eq_ix2 j⟩
  have ht : t.val < 320 := t.isLt
  have hp : p.val < 5000 := p.isLt
  obtain ⟨-, -, -, -, -, -, -, -, -, -, e0, e1, -⟩ := blockIdx_facts t
  have hemb : ((cfg1.win 5).blk t).view.emb (ix2 p q) = (ix2 (⟨t.val * 5000 + p.val, by omega⟩ : Fin 1600000) q : S1600000x128.Idx) := by
    funext a
    apply Fin.ext
    match a with
    | ⟨0, _⟩ => show win1_5.index t (0 : Fin 2) * 5000 + 1 * p.val = t.val * 5000 + p.val; rw [e0]; omega
    | ⟨1, _⟩ => show win1_5.index t (1 : Fin 2) * 128 + 1 * q.val = q.val; rw [e1]; omega
  show k1_pay1 (F := Ideal) (iblk1 V c 0 t) (iblk1 V c 3 t) (iblk1 V c 1 t) (iblk1 V c 2 t) (ix2 p q)
    = msgOf (emm (V c main_arg2) (V c main_v10)) (V c main_v8) (V c main_v9) (((cfg1.win 5).blk t).view.emb (ix2 p q))
  rw [hemb]
  exact msg_at V c t p q _ rfl

/-- The attribute product point `t` computes at row `p`, column `q` of its block is the attribute of edge
    `5000 t + p`, feature `q`: the edge's message times the second matrix. -/
theorem attr_at (c : Dev nD) (t : Fin cfg1.N) (p : Fin 5000) (q : Fin 128) (r : Fin 1600000)
    (hr : r.val = t.val * 5000 + p.val) :
    k1_pay2 (F := Ideal) (iblk1 V c 0 t) (iblk1 V c 3 t) (iblk1 V c 1 t) (iblk1 V c 2 t) (iblk1 V c 4 t) (ix2 p q)
      = emm (msgOf (emm (edgeFeat V c) (edgeW V c)) (srcTerm V c) (tgtTerm V c)) (attrW V c) (ix2 r q) := by
  refine (attrProd_apply (iblk1 V c 0 t) (iblk1 V c 3 t) (iblk1 V c 1 t) (iblk1 V c 2 t) (iblk1 V c 4 t) p q).trans ?_
  show _ = ∑ k : Fin 128, msgOf (emm (edgeFeat V c) (edgeW V c)) (srcTerm V c) (tgtTerm V c) (ix2 r k) * attrW V c (ix2 k q)
  refine Finset.sum_congr rfl fun k _ => ?_
  rw [msg_at V c t p k r hr, attrWeight_apply V c t k q]

/-- WHAT POINT `t` WRITES BACK to the attribute array is block `t` of the attributes. -/
theorem flushed6_eq (c : Dev nD) (t : Fin cfg1.N) :
    (dat1 (F := Ideal) V c).flushed 6 t = ((cfg1.win 6).blk t).view.read (Elt Ideal)
      (emm (msgOf (emm (V c main_arg2) (V c main_v10)) (V c main_v8) (V c main_v9)) (V c main_v11)) := by
  show (cfg1.win 6).cut (grid1.coords t) ((dat1 V c).after 6 t) = _
  rw [after1_6]
  unfold out1_6
  rw [View.canon_unit_zero zero_offsets]
  simp only [View.ld_unit_zero (S := S5000x128) zero_offsets, View.ld_unit_zero (S := S128x128) zero_offsets]
  funext j
  obtain ⟨p, q, rfl⟩ : ∃ (p : Fin 5000) (q : Fin 128), j = ix2 p q := ⟨j 0, j 1, eq_ix2 j⟩
  have ht : t.val < 320 := t.isLt
  have hp : p.val < 5000 := p.isLt
  obtain ⟨-, -, -, -, -, -, -, -, -, -, -, -, e0, e1⟩ := blockIdx_facts t
  have hemb : ((cfg1.win 6).blk t).view.emb (ix2 p q) = (ix2 (⟨t.val * 5000 + p.val, by omega⟩ : Fin 1600000) q : S1600000x128.Idx) := by
    funext a
    apply Fin.ext
    match a with
    | ⟨0, _⟩ => show win1_6.index t (0 : Fin 2) * 5000 + 1 * p.val = t.val * 5000 + p.val; rw [e0]; omega
    | ⟨1, _⟩ => show win1_6.index t (1 : Fin 2) * 128 + 1 * q.val = q.val; rw [e1]; omega
  show k1_pay2 (F := Ideal) (iblk1 V c 0 t) (iblk1 V c 3 t) (iblk1 V c 1 t) (iblk1 V c 2 t) (iblk1 V c 4 t) (ix2 p q)
    = emm (msgOf (emm (V c main_arg2) (V c main_v10)) (V c main_v8) (V c main_v9)) (V c main_v11) (((cfg1.win 6).blk t).view.emb (ix2 p q))
  rw [hemb]
  exact attr_at V c t p q _ rfl

/-! ## The cover: row `r` lies in the block of point `r / 5000` -/

/-- An index of the message array is in point `t`'s block iff each coordinate is in the block's range on its axis. -/
theorem mem_msgBlock (t : Fin cfg1.N) (i : S1600000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v12_0).slice (win1_5.rect t)).set ↔ _
  rw [View.set_slice_whole, Rect.mem_set_unit]
  exact Iff.rfl

/-- The same for the attribute array. -/
theorem mem_attrBlock (t : Fin cfg1.N) (i : S1600000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v12_1).slice (win1_6.rect t)).set ↔ _
  rw [View.set_slice_whole, Rect.mem_set_unit]
  exact Iff.rfl

/-- Every index of the message array is in the block some point writes back. -/
theorem msg_cover (i : S1600000x128.Idx) :
    ∃ t : Fin cfg1.N, (cfg1.win 5).flush t = true ∧ i ∈ ((cfg1.win 5).blk t).view.set := by
  have hi0 : (i 0).val < 1600000 := (i 0).isLt
  have hi1 : (i 1).val < 128 := (i 1).isLt
  obtain ⟨t, ht⟩ : ∃ t : Fin cfg1.N, t.val = (i 0).val / 5000 := ⟨⟨(i 0).val / 5000, by show _ < 320; omega⟩, rfl⟩
  obtain ⟨-, -, -, -, -, -, -, -, -, -, e0, e1, -⟩ := blockIdx_facts t
  refine ⟨t, flush1_5 t, ?_⟩
  rw [mem_msgBlock]
  intro a
  match a with
  | ⟨0, _⟩ => show win1_5.index t (0 : Fin 2) * 5000 ≤ (i 0).val ∧ (i 0).val < win1_5.index t (0 : Fin 2) * 5000 + 5000; rw [e0, ht]; omega
  | ⟨1, _⟩ => show win1_5.index t (1 : Fin 2) * 128 ≤ (i 1).val ∧ (i 1).val < win1_5.index t (1 : Fin 2) * 128 + 128; rw [e1]; omega

/-- Every index of the attribute array is in the block some point writes back. -/
theorem attr_cover (i : S1600000x128.Idx) :
    ∃ t : Fin cfg1.N, (cfg1.win 6).flush t = true ∧ i ∈ ((cfg1.win 6).blk t).view.set := by
  have hi0 : (i 0).val < 1600000 := (i 0).isLt
  have hi1 : (i 1).val < 128 := (i 1).isLt
  obtain ⟨t, ht⟩ : ∃ t : Fin cfg1.N, t.val = (i 0).val / 5000 := ⟨⟨(i 0).val / 5000, by show _ < 320; omega⟩, rfl⟩
  obtain ⟨-, -, -, -, -, -, -, -, -, -, -, -, e0, e1⟩ := blockIdx_facts t
  refine ⟨t, flush1_6 t, ?_⟩
  rw [mem_attrBlock]
  intro a
  match a with
  | ⟨0, _⟩ => show win1_6.index t (0 : Fin 2) * 5000 ≤ (i 0).val ∧ (i 0).val < win1_6.index t (0 : Fin 2) * 5000 + 5000; rw [e0, ht]; omega
  | ⟨1, _⟩ => show win1_6.index t (1 : Fin 2) * 128 ≤ (i 1).val ∧ (i 1).val < win1_6.index t (1 : Fin 2) * 128 + 128; rw [e1]; omega

end EdgeFuse

open EdgeFuse

/-! ## The two arrays after the region -/

/-- The message array after the region: every edge's message, the rectifier of the edge features times the first
    matrix plus the two gathered node terms. -/
theorem final1_5 (c : Dev nD) :
    (dat1 (F := Ideal) V c).arrAt 5 cfg1.N = msgOf (emm (V c main_arg2) (V c main_v10)) (V c main_v8) (V c main_v9) :=
  (dat1 (F := Ideal) V c).arrAt_eq_of_cover 5 _ (fun t _ => flushed5_eq V c t) msg_cover

/-- The attribute array after the region: every edge's message times the second matrix. -/
theorem final1_6 (c : Dev nD) :
    (dat1 (F := Ideal) V c).arrAt 6 cfg1.N
      = emm (msgOf (emm (V c main_arg2) (V c main_v10)) (V c main_v8) (V c main_v9)) (V c main_v11) :=
  (dat1 (F := Ideal) V c).arrAt_eq_of_cover 6 _ (fun t _ => flushed6_eq V c t) attr_cover

end Cert.KernelIdeal.Regions
end
-- ==== Proof.Region2.lean ====
/-
  The value of the node-embedding region: what its output array holds once every grid point has written back.

  The region walks the 50000 node rows in 25 blocks of 2000. At a block it multiplies the block of node features
  (2000 x 256) by the whole 256 x 256 matrix held beside it, splits the product into its left and right halves of 128
  columns, adds the block of aggregated messages to the left half, applies the leaky rectifier, and adds the right
  half. Row by row nothing depends on the block a row sits in, so the whole output array is one function of the three
  arrays the region finds: entry (n, j) is
      (x . wf)[n, 128 + j] + l( (x . wf)[n, j] + agg[n, j] ).
-/
import proofs.«401195_j34832184770736_3_alg».proof.Proof.Gen.KernelIdeal.Frame
import proofs.«401195_j34832184770736_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Regions

open Idealize.ShloMosaic Idealize.ShloMosaic.TcCoe Idealize.SL.Sem Idealize.ShloMosaic.ValueIdx
open Cert.KernelIdeal Cert.KernelIdeal.Gen Cert.Layer

variable (V : (c : Dev nD) → (b : Ref sig .tc) → Buf (Elt Ideal) ((c : Thread nD τ).loc b))

namespace NodeEmbed

/-! ## The block product at an index

The body's matrix product contracts axis 1 of the feature block with axis 0 of the matrix. Its left operand index at
output entry `(p, j)` and contraction position `k` is `(p, k)`, its right operand index is `(k, j)`. -/

theorem dot_lhs_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem dot_lhs_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem dot_rhs_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem dot_rhs_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The product of a feature block with the matrix, into a zero accumulator, at entry `(p, j)`: the sum over the 256
    shared positions. A change of float format is the identity on extended reals, so the operands enter as they are. -/
theorem product_apply (x : FVec Ideal S2000x256 .bf16) (w : FVec Ideal S256x256 .bf16) (p : Fin 2000) (j : Fin 256) :
    matmul (F := Ideal) dot_S2000x256_S256x256_S2000x256_1_0_0_1_n_n none x w (constant (F := Ideal) S2000x256 .f32 0x00000000#32) (ix2 p j)
      = ∑ k : Fin 256, x (ix2 p k) * w (ix2 k j) := by
  refine (Ideal.matmul_constant_zero_apply dot_S2000x256_S256x256_S2000x256_1_0_0_1_n_n none x w (ix2 p j)).trans ?_
  rw [← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx (ix2 p j) ((ValueIdx.contrEquiv1 dot_S2000x256_S256x256_S2000x256_1_0_0_1_n_n 256 rfl rfl).symm k) = ix2 p k := funext fun a => Fin.ext (by
    match a with
    | ⟨0, _⟩ => exact dot_lhs_0 _ _
    | ⟨1, _⟩ => exact (dot_lhs_1 _ _).trans hk)
  have er : dot_S2000x256_S256x256_S2000x256_1_0_0_1_n_n.rhsIdx (ix2 p j) ((ValueIdx.contrEquiv1 dot_S2000x256_S256x256_S2000x256_1_0_0_1_n_n 256 rfl rfl).symm k) = ix2 k j := funext fun a => Fin.ext (by
    match a with
    | ⟨0, _⟩ => exact (dot_rhs_0 _ _).trans hk
    | ⟨1, _⟩ => exact dot_rhs_1 _ _)
  rw [el, er]

/-! ## What the body stores, at an index

Entry `(p, q)` of the stored block: column `128 + q` of the block product, plus the rectifier of column `q` of the
product plus the aggregate's entry. -/

theorem stored_apply (x0 : Vec Ideal S2000x256 .f32) (x1 : Vec Ideal S256x256 .f32) (x2 : Vec Ideal S2000x128 .f32)
    (p : Fin 2000) (q : Fin 128) :
    k2_pay1 (F := Ideal) x0 x1 x2 (ix2 p q)
      = (∑ k : Fin 256, x0 (ix2 p k) * x1 (ix2 k ⟨128 + q.val, by omega⟩))
        + lrelu ((∑ k : Fin 256, x0 (ix2 p k) * x1 (ix2 k ⟨0 + q.val, by omega⟩)) + x2 (ix2 p q)) := by
  unfold k2_pay1
  rw [shapeCast_self, shapeCast_self]
  -- the product, read once at every column of row `p`
  have hM : ∀ j : Fin 256,
      matmul (F := Ideal) dot_S2000x256_S256x256_S2000x256_1_0_0_1_n_n none (truncf .bf16 x0 bitsLt_bf16_f32)
          (truncf .bf16 x1 bitsLt_bf16_f32) (constant (F := Ideal) S2000x256 .f32 0x00000000#32) (ix2 p j)
        = ∑ k : Fin 256, x0 (ix2 p k) * x1 (ix2 k j) :=
    fun j => product_apply (truncf .bf16 x0 bitsLt_bf16_f32) (truncf .bf16 x1 bitsLt_bf16_f32) p j
  generalize matmul (F := Ideal) dot_S2000x256_S256x256_S2000x256_1_0_0_1_n_n none (truncf .bf16 x0 bitsLt_bf16_f32)
      (truncf .bf16 x1 bitsLt_bf16_f32) (constant (F := Ideal) S2000x256 .f32 0x00000000#32) = M at hM ⊢
  -- the two halves of its columns
  have hR := slice2_axis1_apply 128 M slices_S2000x256_o0_128_S2000x128 p q ⟨128 + q.val, by omega⟩ rfl
  have hL := slice2_axis1_apply 0 M slices_S2000x256_o0_0_S2000x128 p q ⟨0 + q.val, by omega⟩ rfl
  show extractStridedSlice S2000x128 ![0, 128] M slices_S2000x256_o0_128_S2000x128 (ix2 p q)
      + lrelu (extractStridedSlice S2000x128 ![0, 0] M slices_S2000x256_o0_0_S2000x128 (ix2 p q) + x2 (ix2 p q)) = _
  rw [hR, hL, hM, hM]

/-! ## A stored block is a block of one whole-array function

If row `p` of the feature block is row `r` of the feature array, the matrix block is the whole matrix, and entry
`(p, q)` of the aggregate block is entry `(r, q)` of the aggregate array, then entry `(p, q)` of what the body stores is
the layer's embedding function at `(r, q)`. Nothing here knows which block row `r` lies in. -/

theorem stored_is_block_entry (x0 : Vec Ideal S2000x256 .f32) (x1 : Vec Ideal S256x256 .f32) (x2 : Vec Ideal S2000x128 .f32)
    (X : SN256.Idx → EReal) (Wf : SF256.Idx → EReal) (A : SN128.Idx → EReal)
    (p : Fin 2000) (q : Fin 128) (r : Fin 50000)
    (h0 : ∀ k : Fin 256, x0 (ix2 p k) = X (ix2 r k))
    (h1 : ∀ k j : Fin 256, x1 (ix2 k j) = Wf (ix2 k j))
    (h2 : x2 (ix2 p q) = A (ix2 r q)) :
    k2_pay1 (F := Ideal) x0 x1 x2 (ix2 p q)
      = embOf (mmCols X Wf 128 (by decide)) (mmCols X Wf 0 (by decide)) A (ix2 r q) := by
  refine (stored_apply x0 x1 x2 p q).trans ?_
  show _ = (∑ k : Fin 256, X (ix2 r k) * Wf (ix2 k ⟨128 + q.val, by omega⟩))
      + lrelu ((∑ k : Fin 256, X (ix2 r k) * Wf (ix2 k ⟨0 + q.val, by omega⟩)) + A (ix2 r q))
  simp only [h0, h1, h2]

/-! ## The grid

Point `t` of the 25 works on block row `t` of the three row-tiled arrays and on the one block of the matrix:
the printed index maps, decided once over the grid. -/

theorem index_maps : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

theorem offsets_zero : (![0, 0] : Fin 2 → Nat) = fun _ => 0 := funext fun a => by fin_cases a <;> rfl

/-- The layer's embedding function of the three arrays the region finds. -/
abbrev ofFound (c : Dev nD) : SN128.Idx → EReal :=
  embOf (mmCols (V c main_arg0) (V c main_v28) 128 (by decide)) (mmCols (V c main_arg0) (V c main_v28) 0 (by decide)) (V c main_v25)

/-! ## What a grid point writes back

At point `t` the body's one whole-block store leaves its payload in the output's staging buffer, and the payload's
inputs are the three windows' blocks at `t`. Entry `(p, q)` of every row-tiled block sits at row `t * 2000 + p` of its
array (block index times block rows plus the row inside the block), the matrix block is the matrix; so what is written
back is block `t` of the layer's embedding function of the arrays found. -/

theorem written_back_eq (c : Dev nD) (t : Fin cfg2.N) :
    (dat2 (F := Ideal) V c).flushed 3 t = ((cfg2.win 3).blk t).view.read (Elt Ideal) (ofFound V c) := by
  show (cfg2.win 3).cut (grid2.coords t) ((dat2 (F := Ideal) V c).after 3 t) = _
  rw [after2_3]
  unfold out2_3
  rw [View.canon_unit_zero offsets_zero]
  simp only [View.ld_unit_zero (S := S2000x256) offsets_zero, View.ld_unit_zero (S := S256x256) offsets_zero,
    View.ld_unit_zero (S := S2000x128) offsets_zero]
  obtain ⟨e00, e01, e10, e11, e20, e21, e30, e31⟩ := index_maps t
  have ht : t.val < 25 := by have h := t.isLt; have hN : cfg2.N = 25 := N_2; omega
  refine funext fun (j : S2000x128.Idx) => ?_
  obtain ⟨p, q, rfl⟩ : ∃ (p : Fin 2000) (q : Fin 128), j = ix2 p q := ⟨j 0, j 1, eq_ix2 j⟩
  have hp : p.val < 2000 := p.isLt
  have hq : q.val < 128 := q.isLt
  show k2_pay1 (F := Ideal) (iblk2 V c 0 t) (iblk2 V c 1 t) (iblk2 V c 2 t) (ix2 p q)
      = ofFound V c (((cfg2.win 3).blk t).view.emb (ix2 p q))
  -- where entry (p, q) of the output block sits in the output array
  have hout : ((cfg2.win 3).blk t).view.emb (ix2 p q)
      = (ix2 (⟨t.val * 2000 + p.val, by omega⟩ : Fin 50000) q : SN128.Idx) := by
    funext a; apply Fin.ext
    match a with
    | ⟨0, _⟩ => show win2_3.index t (0 : Fin 2) * 2000 + 1 * p.val = t.val * 2000 + p.val; omega
    | ⟨1, _⟩ => show win2_3.index t (1 : Fin 2) * 128 + 1 * q.val = q.val; omega
  refine (stored_is_block_entry (iblk2 V c 0 t) (iblk2 V c 1 t) (iblk2 V c 2 t) (V c main_arg0) (V c main_v28) (V c main_v25)
    p q ⟨t.val * 2000 + p.val, by omega⟩ (fun k => ?_) (fun k j => ?_) ?_).trans (congrArg (ofFound V c) hout.symm)
  · -- the feature block: row t * 2000 + p of the features
    have hk : k.val < 256 := k.isLt
    show V c main_arg0 (((cfg2.win 0).blk t).view.emb (ix2 p k))
        = V c main_arg0 (ix2 (⟨t.val * 2000 + p.val, by omega⟩ : Fin 50000) k : SN256.Idx)
    refine congrArg (V c main_arg0) ?_
    funext a; apply Fin.ext
    match a with
    | ⟨0, _⟩ => show win2_0.index t (0 : Fin 2) * 2000 + 1 * p.val = t.val * 2000 + p.val; omega
    | ⟨1, _⟩ => show win2_0.index t (1 : Fin 2) * 256 + 1 * k.val = k.val; omega
  · -- the matrix block: the whole matrix
    have hk : k.val < 256 := k.isLt
    have hj : j.val < 256 := j.isLt
    show V c main_v28 (((cfg2.win 1).blk t).view.emb (ix2 k j)) = V c main_v28 (ix2 k j : SF256.Idx)
    refine congrArg (V c main_v28) ?_
    funext a; apply Fin.ext
    match a with
    | ⟨0, _⟩ => show win2_1.index t (0 : Fin 2) * 256 + 1 * k.val = k.val; omega
    | ⟨1, _⟩ => show win2_1.index t (1 : Fin 2) * 256 + 1 * j.val = j.val; omega
  · -- the aggregate block: row t * 2000 + p of the aggregate
    show V c main_v25 (((cfg2.win 2).blk t).view.emb (ix2 p q))
        = V c main_v25 (ix2 (⟨t.val * 2000 + p.val, by omega⟩ : Fin 50000) q : SN128.Idx)
    refine congrArg (V c main_v25) ?_
    funext a; apply Fin.ext
    match a with
    | ⟨0, _⟩ => show win2_2.index t (0 : Fin 2) * 2000 + 1 * p.val = t.val * 2000 + p.val; omega
    | ⟨1, _⟩ => show win2_2.index t (1 : Fin 2) * 128 + 1 * q.val = q.val; omega

/-! ## The blocks cover the array

An index of the output array lies in point `t`'s block exactly when each coordinate lies in the block's range on its
axis; row `r` lies in the block of point `r / 2000`, and every point writes back. -/

theorem mem_block_iff (t : Fin cfg2.N) (i : S50000x128.Idx) :
    i ∈ ((cfg2.win 3).blk t).view.set ↔ ∀ a : Fin 2, win2_3.index t a * S2000x128.size a ≤ (i a).val
      ∧ (i a).val < win2_3.index t a * S2000x128.size a + S2000x128.size a := by
  show i ∈ ((View.whole main_v29).slice (win2_3.rect t)).set ↔ _
  rw [View.set_slice_whole, Rect.mem_set_unit]
  exact Iff.rfl

theorem blocks_cover (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  have hN : cfg2.N = 25 := N_2
  obtain ⟨t, ht⟩ : ∃ t : Fin cfg2.N, t.val = (i 0).val / 2000 := ⟨⟨(i 0).val / 2000, by omega⟩, rfl⟩
  obtain ⟨-, -, -, -, -, -, e30, e31⟩ := index_maps t
  refine ⟨t, flush2_3 t, ?_⟩
  rw [mem_block_iff]
  intro a
  match a with
  | ⟨0, _⟩ =>
    show win2_3.index t (0 : Fin 2) * 2000 ≤ (i 0).val ∧ (i 0).val < win2_3.index t (0 : Fin 2) * 2000 + 2000
    omega
  | ⟨1, _⟩ =>
    show win2_3.index t (1 : Fin 2) * 128 ≤ (i 1).val ∧ (i 1).val < win2_3.index t (1 : Fin 2) * 128 + 128
    omega

end NodeEmbed

open NodeEmbed

/-! ## The array after the region -/

/-- Every point writes its block of one function and the blocks cover the array: the output array ends holding the
    layer's embedding function of the features, the concatenated matrix and the aggregate as the region found them. -/
theorem final2_3 (c : Dev nD) :
    (dat2 (F := Ideal) V c).arrAt 3 cfg2.N
      = embOf (mmCols (V c main_arg0) (V c main_v28) 128 (by decide)) (mmCols (V c main_arg0) (V c main_v28) 0 (by decide)) (V c main_v25) :=
  (dat2 (F := Ideal) V c).arrAt_eq_of_cover 3 (ofFound V c) (fun t _ => written_back_eq V c t) blocks_cover

end Cert.KernelIdeal.Regions

end
-- ==== Proof.Take.lean ====
/-
  The kernel's row lookup is a plain row gather when every node number lies in -50000 … 49999.

  A node number n is wrapped to n + 50000 when it is negative and left alone otherwise; for n in -50000 … 49999 the
  wrapped number lies in 0 … 49999, so the test "0 ≤ wrapped ≤ 49999" that guards each gathered row succeeds on every
  edge and the guarded lookup never takes its filler. The test of one edge is an "and" over a one-element axis, started
  at 1: a fold of "and" from 1 over ones is 1. The precondition's last conjunct is the "and" over every entry of the
  2 × 1600000 edge-index matrix of "-50000 ≤ entry" and "entry < 50000" (signed); its being 1 gives both bounds at
  every entry, and the two rows of that matrix read as vectors are the source and target node numbers.
-/
import proofs.«401195_j34832184770736_3_alg».proof.Proof.KTerms
import proofs.«401195_j34832184770736_3_alg».proof.Proof.Gen.Pre_finite_inputs
import proofs.«401195_j34832184770736_3_alg».proof.Defs
import Idealize.ShloMosaic.Lib.ValueIdx
import Idealize.ShloMosaic.Lib.ValueLayout
import Idealize.ShloMosaic.Lib.ReduceAll
import Idealize.ShloMosaic.Lib.StableHlo.Predicate

noncomputable section

namespace Cert.Layer.Iface

open Idealize.ShloMosaic Idealize.ShloMosaic.TcCoe Idealize.SL.Sem Idealize.ShloMosaic.ValueIdx

/-! ## Words -/

/-- A left fold of "and" that starts at 1 and meets only ones ends at 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from rfl]
    exact foldl_andi_ones f hf l

/-- The three literals read as signed numbers. -/
theorem toInt_zero : (0#32 : BitVec 32).toInt = 0 := by decide
theorem toInt_50000 : (50000#32 : BitVec 32).toInt = 50000 := by decide
theorem toInt_49999 : (49999#32 : BitVec 32).toInt = 49999 := by decide
theorem toInt_neg50000 : (4294917296#32 : BitVec 32).toInt = -50000 := by decide

/-- A number in -50000 … 49999, wrapped (50000 added when it is negative), passes the test 0 ≤ · ≤ 49999. -/
theorem wrap_in_range (x : BitVec 32) (hx : -50000 ≤ x.toInt ∧ x.toInt < 50000) :
    IntOp.andi
      (IntOp.cmpi .sge (Scalar.select (IntOp.cmpi .slt x 0#32) (IntOp.addi x 50000#32) x) 0#32)
      (IntOp.cmpi .sle (Scalar.select (IntOp.cmpi .slt x 0#32) (IntOp.addi x 50000#32) x) 49999#32) = 1#1 := by
  obtain ⟨hlo, hhi⟩ := hx
  rw [IntOp.andi_eq_one]
  by_cases hneg : x.toInt < 0
  · have hc : IntOp.cmpi .slt x 0#32 = 1#1 := by
      show BitVec.ofBool (x.slt 0#32) = 1#1
      rw [StableHlo.Predicate.ofBool_eq_one_iff, BitVec.slt, decide_eq_true_eq, toInt_zero]
      exact hneg
    have ha : (IntOp.addi x 50000#32).toInt = x.toInt + 50000 := by
      show (x + 50000#32).toInt = _
      rw [BitVec.toInt_add, toInt_50000]
      exact Int.bmod_eq_of_le_mul_two (by omega) (by omega)
    rw [hc, select_one]
    constructor
    · show BitVec.ofBool ((0#32 : BitVec 32).sle (IntOp.addi x 50000#32)) = 1#1
      rw [StableHlo.Predicate.ofBool_eq_one_iff, BitVec.sle, decide_eq_true_eq, toInt_zero, ha]
      omega
    · show BitVec.ofBool ((IntOp.addi x 50000#32).sle 49999#32) = 1#1
      rw [StableHlo.Predicate.ofBool_eq_one_iff, BitVec.sle, decide_eq_true_eq, toInt_49999, ha]
      omega
  · have hc : IntOp.cmpi .slt x 0#32 = 0#1 := by
      refine eq_zero_of_ne_one fun h1 => hneg ?_
      have h2 : BitVec.ofBool (x.slt 0#32) = 1#1 := h1
      rw [StableHlo.Predicate.ofBool_eq_one_iff, BitVec.slt, decide_eq_true_eq, toInt_zero] at h2
      exact h2
    rw [hc, select_zero]
    constructor
    · show BitVec.ofBool ((0#32 : BitVec 32).sle x) = 1#1
      rw [StableHlo.Predicate.ofBool_eq_one_iff, BitVec.sle, decide_eq_true_eq, toInt_zero]
      omega
    · show BitVec.ofBool (x.sle 49999#32) = 1#1
      rw [StableHlo.Predicate.ofBool_eq_one_iff, BitVec.sle, decide_eq_true_eq, toInt_49999]
      omega

/-! ## The wrapped numbers and the range test, read at an edge -/

/-- The wrapped node number of edge e, in the one-column matrix of start indices. -/
theorem nrm_apply (v : IVec Cert.KernelIdeal.S1600000 32) (e : Fin 1600000) (z : Fin 1) :
    Cert.KernelIdeal.Host.nrm v (ix2 e z)
      = Scalar.select (IntOp.cmpi .slt (v (ix1 e)) 0#32) (IntOp.addi (v (ix1 e)) 50000#32) (v (ix1 e)) := by
  unfold Cert.KernelIdeal.Host.nrm
  refine (broadcastInDim_apply _ _ _ (ix2 e z) (ix1 e) (fun a => ?_)).trans rfl
  match a with
  | ⟨0, _⟩ =>
    show e.val = if (1600000 : ℕ) = 1 then 0 else e.val
    rw [if_neg (by decide)]

/-- Every edge passes the range test when every node number lies in -50000 … 49999. -/
theorem inRange_eq_one (v : IVec Cert.KernelIdeal.S1600000 32)
    (hv : ∀ e, -50000 ≤ (v e).toInt ∧ (v e).toInt < 50000) (j : Cert.KernelIdeal.S1600000.Idx) :
    Cert.KernelIdeal.Host.inRange v j = 1#1 := by
  unfold Cert.KernelIdeal.Host.inRange
  refine (Host.reduce_eq_foldl _ _ _ _ _ _).trans ?_
  refine foldl_andi_ones _ (fun i => ?_) _
  obtain ⟨p, q, rfl⟩ : ∃ (p : Fin 1600000) (q : Fin 1), i = ix2 p q := ⟨i 0, i 1, eq_ix2 i⟩
  show IntOp.andi (IntOp.cmpi .sge (Cert.KernelIdeal.Host.nrm v (ix2 p q)) 0#32)
      (IntOp.cmpi .sle (Cert.KernelIdeal.Host.nrm v (ix2 p q)) 49999#32) = 1#1
  rw [nrm_apply]
  exact wrap_in_range _ (hv _)

theorem take_eq (h : FVec Ideal Cert.KernelIdeal.S50000x128 .f32) (v : IVec Cert.KernelIdeal.S1600000 32)
    (hv : ∀ e, -50000 ≤ (v e).toInt ∧ (v e).toInt < 50000) :
    Cert.KernelIdeal.Host.take h v
      = Host.gather Cert.KernelIdeal.gather_S50000x128_S1600000x1_S1600000x128_1_0_n_n_0_1_1128 h (Cert.KernelIdeal.Host.nrm v) := by
  funext i
  unfold Cert.KernelIdeal.Host.take
  rw [select_apply]
  have hc : broadcastInDim Cert.KernelIdeal.S1600000x128 ![0] Cert.KernelIdeal.Facts₀.bcast_S1600000_S1600000x128_0
      (Cert.KernelIdeal.Host.inRange v) i = 1#1 := inRange_eq_one v hv _
  rw [hc, select_one]

/-! ## The precondition's range conjunct, and the two rows of the edge-index matrix -/

instance : Subsingleton Cert.Pre_finite_inputs.S_.Idx := ⟨fun a b => funext fun d => d.elim0⟩

/-- The precondition all ones says every entry of the edge-index matrix lies in -50000 … 49999. -/
theorem entry_range
    (a0 : FVec Ideal Cert.Pre_finite_inputs.S50000x256 .f32) (a1 : IVec Cert.Pre_finite_inputs.S2x1600000 32)
    (a2 : FVec Ideal Cert.Pre_finite_inputs.S1600000x128 .f32) (a3 : FVec Ideal Cert.Pre_finite_inputs.S128x128 .f32)
    (a4 a5 a6 a7 : FVec Ideal Cert.Pre_finite_inputs.S128x256 .f32) (a8 : FVec Ideal Cert.Pre_finite_inputs.S128x128 .f32)
    (h : Cert.Pre_finite_inputs.fn (F := Ideal) a0 a1 a2 a3 a4 a5 a6 a7 a8 = fun _ => 1#1)
    (i : Cert.Pre_finite_inputs.S2x1600000.Idx) : -50000 ≤ (a1 i).toInt ∧ (a1 i).toInt < 50000 := by
  have e := congrFun h ix0
  dsimp only [Cert.Pre_finite_inputs.fn, Cert.Pre_finite_inputs.fn_part1, Cert.Pre_finite_inputs.fn_part2] at e
  have e2 := (IntOp.andi_eq_one.1 e).2
  have e3 := Host.reduce_andi_all _ _ _ _ _ e2 i
  obtain ⟨hge, hlt⟩ := IntOp.andi_eq_one.1 e3
  have hge' : BitVec.ofBool ((4294917296#32 : BitVec 32).sle (a1 i)) = 1#1 := hge
  have hlt' : BitVec.ofBool ((a1 i).slt 50000#32) = 1#1 := hlt
  rw [StableHlo.Predicate.ofBool_eq_one_iff, BitVec.sle, decide_eq_true_eq, toInt_neg50000] at hge'
  rw [StableHlo.Predicate.ofBool_eq_one_iff, BitVec.slt, decide_eq_true_eq, toInt_50000] at hlt'
  exact ⟨hge', hlt'⟩

/-- The source node numbers are row 0 of the edge-index matrix. -/
theorem srcV_apply (ei : IVec Cert.KernelIdeal.S2x1600000 32) (e : Fin 1600000) :
    Cert.KernelIdeal.Host.srcV ei (ix1 e) = ei (ix2 (0 : Fin 2) e) := by
  unfold Cert.KernelIdeal.Host.srcV
  refine (shapeCast_1a_a_apply _ _ e).trans ?_
  exact slice2_axis0_apply 0 ei _ (0 : Fin 1) e (0 : Fin 2) rfl

/-- The target node numbers are row 1 of the edge-index matrix. -/
theorem tgtV_apply (ei : IVec Cert.KernelIdeal.S2x1600000 32) (e : Fin 1600000) :
    Cert.KernelIdeal.Host.tgtV ei (ix1 e) = ei (ix2 (1 : Fin 2) e) := by
  unfold Cert.KernelIdeal.Host.tgtV
  refine (shapeCast_1a_a_apply _ _ e).trans ?_
  exact slice2_axis0_apply 1 ei _ (0 : Fin 1) e (1 : Fin 2) rfl

theorem srcV_range (m : (ℓ : Loc Cert.KernelIdeal.nD Cert.KernelIdeal.τ Cert.KernelIdeal.sig) → Buf (Elt Ideal) ℓ)
    (hpre : Cert.Pre_KernelIdeal m) (c : Dev Cert.KernelIdeal.nD) (e) :
    -50000 ≤ (Cert.KernelIdeal.Host.srcV (m ((c.tc : Thread Cert.KernelIdeal.nD Cert.KernelIdeal.τ).loc Cert.KernelIdeal.main_arg1)) e).toInt
    ∧ (Cert.KernelIdeal.Host.srcV (m ((c.tc : Thread Cert.KernelIdeal.nD Cert.KernelIdeal.τ).loc Cert.KernelIdeal.main_arg1)) e).toInt < 50000 := by
  obtain ⟨p, rfl⟩ : ∃ p : Fin 1600000, e = ix1 p := ⟨e 0, eq_ix1 e⟩
  rw [srcV_apply]
  exact entry_range _ _ _ _ _ _ _ _ _ (hpre c) _
theorem tgtV_range (m : (ℓ : Loc Cert.KernelIdeal.nD Cert.KernelIdeal.τ Cert.KernelIdeal.sig) → Buf (Elt Ideal) ℓ)
    (hpre : Cert.Pre_KernelIdeal m) (c : Dev Cert.KernelIdeal.nD) (e) :
    -50000 ≤ (Cert.KernelIdeal.Host.tgtV (m ((c.tc : Thread Cert.KernelIdeal.nD Cert.KernelIdeal.τ).loc Cert.KernelIdeal.main_arg1)) e).toInt
    ∧ (Cert.KernelIdeal.Host.tgtV (m ((c.tc : Thread Cert.KernelIdeal.nD Cert.KernelIdeal.τ).loc Cert.KernelIdeal.main_arg1)) e).toInt < 50000 := by
  obtain ⟨p, rfl⟩ : ∃ p : Fin 1600000, e = ix1 p := ⟨e 0, eq_ix1 e⟩
  rw [tgtV_apply]
  exact entry_range _ _ _ _ _ _ _ _ _ (hpre c) _

end Cert.Layer.Iface

end
-- ==== Proof.Scatter.lean ====
/-
  One scatter of the widened messages is the two separate scatters.

  The kernel's program appends a column of ones to the 1600000 × 128 message matrix, scatter-adds the 129-column rows
  into a 50000 × 129 zero matrix by target node, and then cuts the result: columns 0 … 127 are the per-node sums of the
  messages, column 128 (read as a vector) the per-node count. The reference scatter-adds the messages into a
  50000 × 128 zero matrix and, separately, a vector of ones into a zero vector of length 50000.

  All three scatters take one start component per edge, read signed off the same one-column index matrix and not
  clamped: edge `e` with start `t e` lands on row `t e` when `0 ≤ t e < 50000` and is dropped otherwise; a matrix
  scatter keeps the column. So at `(n, q)` a matrix scatter is the operand plus the sum over the edges with
  `t e = n` of column `q` of the update row, and at `n` the vector scatter is the operand plus the sum over those edges
  of the update. Left of the seam the widened row's column `q` is the message's; at column 128 it is the constant one.
  Both sides are therefore the same sum over edges, term by term; nothing about addition beyond its being a
  commutative monoid is used, so no finiteness is needed.
-/
import proofs.«401195_j34832184770736_3_alg».proof.Proof.KTerms
import proofs.«401195_j34832184770736_3_alg».proof.Proof.RTerms
import Idealize.ShloMosaic.Lib.ValueIdx
import Idealize.ShloMosaic.Lib.ValueLayout
import Idealize.ShloMosaic.PureOps.Ideal.Laws

noncomputable section

namespace Cert.Layer.ScatterRead

open Idealize.ShloMosaic Idealize.ShloMosaic.ValueIdx

/-! ## A row scatter and a vector scatter, read at an index

Both scatters here take ONE start component per update row: the scatter indices are a one-column matrix, the index
vector lies along that column, the one component goes to operand axis 0, and operand axis 0 is an inserted window
axis. For the matrix form the updates' axis 1 is the window axis and goes to operand axis 1; the vector form has no
window axis. So update row `e`, whose start `t e` is the signed reading of the scatter indices at `(e, 0)`, lands
on operand row `t e` (column kept), and is dropped when `t e` is outside `0 … N - 1`. -/

section RowScatter
variable {N E C w : Nat}

/-- The dimension numbers of a row scatter: window axis 1 of the updates, operand axis 0 inserted and indexed. -/
abbrev rowDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ := ⟨[1], [0], [0], 1, wf⟩

/-- The scatter-indices position an update row reads its one start component at: `(e, 0)`. -/
theorem rows_siIdx (wf) (e : Fin E) (c : Fin C) (k) :
    (rowDims N E C wf).siIdx (ix2 e c) k = ix2 e (0 : Fin 1) := by
  funext b
  match b with
  | ⟨0, _⟩ => rfl
  | ⟨1, _⟩ =>
    refine Fin.ext ?_
    have hk : k.val < 1 := k.isLt
    show k.val = 0
    omega

/-- The start on operand axis 0 is the signed reading of the scatter indices at `(e, 0)`. -/
theorem rows_start0 (wf) (idx : IVec ⟨2, ![E, 1]⟩ w) (e : Fin E) (c : Fin C) (h0 : 0 < 2) :
    (rowDims N E C wf).start (ix2 e c) idx ⟨0, h0⟩ = (idx (ix2 e (0 : Fin 1))).toInt := by
  refine Eq.trans (rfl : _ = (idx ((rowDims N E C wf).siIdx (ix2 e c) ⟨0, Nat.one_pos⟩)).toInt) ?_
  rw [rows_siIdx]

/-- An update element lands on `(n, q)` exactly when its row's start is `n`, inside the operand, and its column is `q`. -/
theorem rows_resultIdx?_iff (wf) (idx : IVec ⟨2, ![E, 1]⟩ w) (e : Fin E) (c : Fin C) (n : Fin N) (q : Fin C) :
    (rowDims N E C wf).resultIdx? (ix2 e c) idx = some (ix2 n q)
      ↔ ((0 ≤ (idx (ix2 e (0 : Fin 1))).toInt ∧ (idx (ix2 e (0 : Fin 1))).toInt < (N : Int)
            ∧ (idx (ix2 e (0 : Fin 1))).toInt.toNat = n.val) ∧ c = q) := by
  have p0 : 0 < 2 := by decide
  have p1 : 1 < 2 := by decide
  have hs0 := rows_start0 (N := N) wf idx e c p0
  have hc : c.val < C := c.isLt
  have hn : n.val < N := n.isLt
  unfold ScatterDims.resultIdx?
  split
  · next h =>
    have h0 : 0 ≤ (rowDims N E C wf).start (ix2 e c) idx ⟨0, p0⟩ + ((0 : Nat) : Int)
        ∧ (rowDims N E C wf).start (ix2 e c) idx ⟨0, p0⟩ + ((0 : Nat) : Int) < (N : Int) := h ⟨0, p0⟩
    rw [hs0] at h0
    constructor
    · intro hf
      have hf' := Option.some.inj hf
      have e0 : ((rowDims N E C wf).start (ix2 e c) idx ⟨0, p0⟩ + ((0 : Nat) : Int)).toNat = n.val :=
        congrArg Fin.val (congrFun hf' ⟨0, p0⟩)
      have e1 : ((0 : Int) + ((c.val : Nat) : Int)).toNat = q.val := congrArg Fin.val (congrFun hf' ⟨1, p1⟩)
      rw [hs0] at e0
      exact ⟨⟨by omega, by omega, by omega⟩, Fin.ext (by omega)⟩
    · rintro ⟨⟨_, _, e0⟩, rfl⟩
      refine congrArg some (funext fun a => ?_)
      match a with
      | ⟨0, _⟩ =>
        refine Fin.ext ?_
        show ((rowDims N E C wf).start (ix2 e c) idx ⟨0, p0⟩ + ((0 : Nat) : Int)).toNat = n.val
        rw [hs0]; omega
      | ⟨1, _⟩ =>
        refine Fin.ext ?_
        show ((0 : Int) + ((c.val : Nat) : Int)).toNat = c.val
        omega
  · next h =>
    constructor
    · intro hf; cases hf
    · rintro ⟨⟨a0, a1, _⟩, rfl⟩
      refine absurd (fun a => ?_) h
      match a with
      | ⟨0, _⟩ =>
        show 0 ≤ (rowDims N E C wf).start (ix2 e c) idx ⟨0, p0⟩ + ((0 : Nat) : Int)
          ∧ (rowDims N E C wf).start (ix2 e c) idx ⟨0, p0⟩ + ((0 : Nat) : Int) < (N : Int)
        rw [hs0]; omega
      | ⟨1, _⟩ =>
        show 0 ≤ (0 : Int) + ((c.val : Nat) : Int) ∧ (0 : Int) + ((c.val : Nat) : Int) < (C : Int)
        omega

/-- The row scatter at `(n, q)`: the operand there plus, over the update rows that land on row `n`, column `q` of each. -/
theorem rows_scatterAdd_apply (wf) (x : (⟨2, ![N, C]⟩ : Shape).Idx → EReal) (idx : IVec ⟨2, ![E, 1]⟩ w)
    (upd : (⟨2, ![E, C]⟩ : Shape).Idx → EReal) (n : Fin N) (q : Fin C) :
    Ideal.hostScatterAdd (rowDims N E C wf) x idx upd (ix2 n q)
      = x (ix2 n q) + ∑ e : Fin E,
          if (0 ≤ (idx (ix2 e (0 : Fin 1))).toInt ∧ (idx (ix2 e (0 : Fin 1))).toInt < (N : Int)
              ∧ (idx (ix2 e (0 : Fin 1))).toInt.toNat = n.val) then upd (ix2 e q) else 0 := by
  unfold Ideal.hostScatterAdd
  refine congrArg (x (ix2 n q) + ·) ?_
  rw [Finset.sum_filter, sum_idx2]
  refine Finset.sum_congr rfl fun e _ => ?_
  by_cases hA : (0 ≤ (idx (ix2 e (0 : Fin 1))).toInt ∧ (idx (ix2 e (0 : Fin 1))).toInt < (N : Int)
      ∧ (idx (ix2 e (0 : Fin 1))).toInt.toNat = n.val)
  · rw [if_pos hA, Finset.sum_eq_single q]
    · exact if_pos ((rows_resultIdx?_iff wf idx e q n q).2 ⟨hA, rfl⟩)
    · intro c _ hcq
      exact if_neg fun hP => hcq ((rows_resultIdx?_iff wf idx e c n q).1 hP).2
    · intro hq; exact absurd (Finset.mem_univ q) hq
  · rw [if_neg hA]
    exact Finset.sum_eq_zero fun c _ => if_neg fun hP => hA ((rows_resultIdx?_iff wf idx e c n q).1 hP).1

/-- The same for any dimension record with these four lists. -/
theorem rowScatter_apply (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (x : (⟨2, ![N, C]⟩ : Shape).Idx → EReal) (idx : IVec ⟨2, ![E, 1]⟩ w)
    (upd : (⟨2, ![E, C]⟩ : Shape).Idx → EReal) (n : Fin N) (q : Fin C) :
    Ideal.hostScatterAdd d x idx upd (ix2 n q)
      = x (ix2 n q) + ∑ e : Fin E,
          if (0 ≤ (idx (ix2 e (0 : Fin 1))).toInt ∧ (idx (ix2 e (0 : Fin 1))).toInt < (N : Int)
              ∧ (idx (ix2 e (0 : Fin 1))).toInt.toNat = n.val) then upd (ix2 e q) else 0 := by
  obtain ⟨uw, iw, sd, iv, wf⟩ := d
  dsimp only at h1 h2 h3 h4
  subst h1 h2 h3 h4
  exact rows_scatterAdd_apply wf x idx upd n q

end RowScatter

section VecScatter
variable {N E w : Nat}

/-- The dimension numbers of a vector scatter: no window axis, operand axis 0 inserted and indexed. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ := ⟨[], [0], [0], 1, wf⟩

/-- The scatter-indices position update `e` reads its one start component at: `(e, 0)`. -/
theorem vec_siIdx (wf) (e : Fin E) (k) :
    (vecDims N E wf).siIdx (ix1 e) k = ix2 e (0 : Fin 1) := by
  funext b
  match b with
  | ⟨0, _⟩ => rfl
  | ⟨1, _⟩ =>
    refine Fin.ext ?_
    have hk : k.val < 1 := k.isLt
    show k.val = 0
    omega

/-- The start on the operand's one axis is the signed reading of the scatter indices at `(e, 0)`. -/
theorem vec_start0 (wf) (idx : IVec ⟨2, ![E, 1]⟩ w) (e : Fin E) (h0 : 0 < 1) :
    (vecDims N E wf).start (ix1 e) idx ⟨0, h0⟩ = (idx (ix2 e (0 : Fin 1))).toInt := by
  refine Eq.trans (rfl : _ = (idx ((vecDims N E wf).siIdx (ix1 e) ⟨0, Nat.one_pos⟩)).toInt) ?_
  rw [vec_siIdx]

/-- Update `e` lands on `n` exactly when its start is `n`, inside the operand. -/
theorem vec_resultIdx?_iff (wf) (idx : IVec ⟨2, ![E, 1]⟩ w) (e : Fin E) (n : Fin N) :
    (vecDims N E wf).resultIdx? (ix1 e) idx = some (ix1 n)
      ↔ (0 ≤ (idx (ix2 e (0 : Fin 1))).toInt ∧ (idx (ix2 e (0 : Fin 1))).toInt < (N : Int)
            ∧ (idx (ix2 e (0 : Fin 1))).toInt.toNat = n.val) := by
  have p0 : 0 < 1 := Nat.one_pos
  have hs0 := vec_start0 (N := N) wf idx e p0
  have hn : n.val < N := n.isLt
  unfold ScatterDims.resultIdx?
  split
  · next h =>
    have h0 : 0 ≤ (vecDims N E wf).start (ix1 e) idx ⟨0, p0⟩ + ((0 : Nat) : Int)
        ∧ (vecDims N E wf).start (ix1 e) idx ⟨0, p0⟩ + ((0 : Nat) : Int) < (N : Int) := h ⟨0, p0⟩
    rw [hs0] at h0
    constructor
    · intro hf
      have hf' := Option.some.inj hf
      have e0 : ((vecDims N E wf).start (ix1 e) idx ⟨0, p0⟩ + ((0 : Nat) : Int)).toNat = n.val :=
        congrArg Fin.val (congrFun hf' ⟨0, p0⟩)
      rw [hs0] at e0
      exact ⟨by omega, by omega, by omega⟩
    · rintro ⟨_, _, e0⟩
      refine congrArg some (funext fun a => ?_)
      match a with
      | ⟨0, _⟩ =>
        refine Fin.ext ?_
        show ((vecDims N E wf).start (ix1 e) idx ⟨0, p0⟩ + ((0 : Nat) : Int)).toNat = n.val
        rw [hs0]; omega
  · next h =>
    constructor
    · intro hf; cases hf
    · rintro ⟨a0, a1, _⟩
      refine absurd (fun a => ?_) h
      match a with
      | ⟨0, _⟩ =>
        show 0 ≤ (vecDims N E wf).start (ix1 e) idx ⟨0, p0⟩ + ((0 : Nat) : Int)
          ∧ (vecDims N E wf).start (ix1 e) idx ⟨0, p0⟩ + ((0 : Nat) : Int) < (N : Int)
        rw [hs0]; omega

/-- A sum over a rank-1 index set is the sum over its one coordinate. -/
theorem sum_idx1 {M : Type*} [AddCommMonoid M] {n : Nat} (f : (⟨1, ![n]⟩ : Shape).Idx → M) :
    ∑ i, f i = ∑ a : Fin n, f (ix1 a) :=
  Fintype.sum_equiv ⟨fun i => i 0, ix1, fun i => (eq_ix1 i).symm, fun _ => rfl⟩ _ _ (fun i => congrArg f (eq_ix1 i))

/-- The vector scatter at `n`: the operand there plus the updates that land on `n`. -/
theorem vec_scatterAdd_apply (wf) (x : (⟨1, ![N]⟩ : Shape).Idx → EReal) (idx : IVec ⟨2, ![E, 1]⟩ w)
    (upd : (⟨1, ![E]⟩ : Shape).Idx → EReal) (n : Fin N) :
    Ideal.hostScatterAdd (vecDims N E wf) x idx upd (ix1 n)
      = x (ix1 n) + ∑ e : Fin E,
          if (0 ≤ (idx (ix2 e (0 : Fin 1))).toInt ∧ (idx (ix2 e (0 : Fin 1))).toInt < (N : Int)
              ∧ (idx (ix2 e (0 : Fin 1))).toInt.toNat = n.val) then upd (ix1 e) else 0 := by
  unfold Ideal.hostScatterAdd
  refine congrArg (x (ix1 n) + ·) ?_
  rw [Finset.sum_filter, sum_idx1]
  refine Finset.sum_congr rfl fun e _ => ?_
  by_cases hA : (0 ≤ (idx (ix2 e (0 : Fin 1))).toInt ∧ (idx (ix2 e (0 : Fin 1))).toInt < (N : Int)
      ∧ (idx (ix2 e (0 : Fin 1))).toInt.toNat = n.val)
  · rw [if_pos hA]; exact if_pos ((vec_resultIdx?_iff wf idx e n).2 hA)
  · rw [if_neg hA]; exact if_neg fun hP => hA ((vec_resultIdx?_iff wf idx e n).1 hP)

/-- The same for any dimension record with these four lists. -/
theorem vecScatter_apply (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (x : (⟨1, ![N]⟩ : Shape).Idx → EReal) (idx : IVec ⟨2, ![E, 1]⟩ w)
    (upd : (⟨1, ![E]⟩ : Shape).Idx → EReal) (n : Fin N) :
    Ideal.hostScatterAdd d x idx upd (ix1 n)
      = x (ix1 n) + ∑ e : Fin E,
          if (0 ≤ (idx (ix2 e (0 : Fin 1))).toInt ∧ (idx (ix2 e (0 : Fin 1))).toInt < (N : Int)
              ∧ (idx (ix2 e (0 : Fin 1))).toInt.toNat = n.val) then upd (ix1 e) else 0 := by
  obtain ⟨uw, iw, sd, iv, wf⟩ := d
  dsimp only at h1 h2 h3 h4
  subst h1 h2 h3 h4
  exact vec_scatterAdd_apply wf x idx upd n

end VecScatter

/-! ## Two matrices side by side, read at an index -/

section ConcatCols
variable {α : Type} {E C₁ C₂ C : Nat}

/-- Left of the seam the concatenation along the columns reads the first matrix at the same place. -/
theorem concat_cols_left (x₁ : (⟨2, ![E, C₁]⟩ : Shape).Idx → α) (x₂ : (⟨2, ![E, C₂]⟩ : Shape).Idx → α)
    (h : Shape.Concatenates [⟨2, ![E, C₁]⟩, ⟨2, ![E, C₂]⟩] ⟨2, ![E, C]⟩ 1)
    (e : Fin E) (c : Fin C) (c₁ : Fin C₁) (hc : c₁.val = c.val) :
    concatenate ⟨2, ![E, C]⟩ 1 [⟨⟨2, ![E, C₁]⟩, x₁⟩, ⟨⟨2, ![E, C₂]⟩, x₂⟩] h (ix2 e c) = x₁ (ix2 e c₁) :=
  concatenate_pair_apply_left 1 x₁ x₂ h (ix2 e c) rfl (ix2 e c₁)
    (fun b => match b with | ⟨0, _⟩ => rfl | ⟨1, _⟩ => hc)

/-- At or past the seam it reads the second matrix, the first one's width less. -/
theorem concat_cols_right (x₁ : (⟨2, ![E, C₁]⟩ : Shape).Idx → α) (x₂ : (⟨2, ![E, C₂]⟩ : Shape).Idx → α)
    (h : Shape.Concatenates [⟨2, ![E, C₁]⟩, ⟨2, ![E, C₂]⟩] ⟨2, ![E, C]⟩ 1)
    (e : Fin E) (c : Fin C) (c₂ : Fin C₂) (hc : c₂.val + C₁ = c.val) :
    concatenate ⟨2, ![E, C]⟩ 1 [⟨⟨2, ![E, C₁]⟩, x₁⟩, ⟨⟨2, ![E, C₂]⟩, x₂⟩] h (ix2 e c) = x₂ (ix2 e c₂) :=
  concatenate_pair_apply_right 1 x₁ x₂ h (ix2 e c) rfl rfl (ix2 e c₂)
    (fun b hb => match b, hb with | ⟨0, _⟩, _ => rfl | ⟨1, _⟩, hb => absurd rfl hb) hc

end ConcatCols

/-! ## The same reads stated at the host operation, and a broadcast scalar constant -/

section HostForms
variable {N E C w : Nat}

/-- The host's accumulating row scatter at `(n, q)`, at the ideal instance. -/
theorem host_rowScatter_apply (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (x : FVec Ideal ⟨2, ![N, C]⟩ .f32) (idx : IVec ⟨2, ![E, 1]⟩ w)
    (upd : FVec Ideal ⟨2, ![E, C]⟩ .f32) (n : Fin N) (q : Fin C) :
    Host.scatterAdd d x idx upd (ix2 n q)
      = x (ix2 n q) + ∑ e : Fin E,
          if (0 ≤ (idx (ix2 e (0 : Fin 1))).toInt ∧ (idx (ix2 e (0 : Fin 1))).toInt < (N : Int)
              ∧ (idx (ix2 e (0 : Fin 1))).toInt.toNat = n.val) then upd (ix2 e q) else 0 :=
  rowScatter_apply d h1 h2 h3 h4 x idx upd n q

/-- The host's accumulating vector scatter at `n`, at the ideal instance. -/
theorem host_vecScatter_apply (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (x : FVec Ideal ⟨1, ![N]⟩ .f32) (idx : IVec ⟨2, ![E, 1]⟩ w)
    (upd : FVec Ideal ⟨1, ![E]⟩ .f32) (n : Fin N) :
    Host.scatterAdd d x idx upd (ix1 n)
      = x (ix1 n) + ∑ e : Fin E,
          if (0 ≤ (idx (ix2 e (0 : Fin 1))).toInt ∧ (idx (ix2 e (0 : Fin 1))).toInt < (N : Int)
              ∧ (idx (ix2 e (0 : Fin 1))).toInt.toNat = n.val) then upd (ix1 e) else 0 :=
  vecScatter_apply d h1 h2 h3 h4 x idx upd n

/-- A scalar constant broadcast to any shape reads its value everywhere. -/
theorem bcast_scalar_const_apply {t : Shape} (dims : Fin 0 → Fin t.rank)
    (h : (⟨0, ![]⟩ : Shape).BroadcastsInDim t dims) (b : BitVec 32) (j : t.Idx) :
    broadcastInDim t dims h (constant (F := Ideal) ⟨0, ![]⟩ .f32 b) j = Ideal.ofBits .f32 b := rfl

end HostForms

end Cert.Layer.ScatterRead

namespace Cert.Layer.Iface

open Idealize.ShloMosaic Idealize.ShloMosaic.ValueIdx
open Cert.Layer.ScatterRead

/-- The sums: slicing columns `0 … 127` off the one scatter of the widened messages leaves, at `(n, q)`, zero plus
    the sum over the edges that land on node `n` of the widened row's column `q`, which left of the seam is the
    message's own column `q`: the reference's scatter of the messages at `(n, q)`, term by term. -/
theorem sumsOf_eq (msg : FVec Ideal Cert.KernelIdeal.S1600000x128 .f32) (v : IVec Cert.KernelIdeal.S1600000 32) :
    Cert.KernelIdeal.Host.sumsOf msg v = Cert.ReferenceIdeal.Host.sumsR msg v := by
  funext i
  obtain ⟨n, q, rfl⟩ : ∃ (n : Fin 50000) (q : Fin 128), i = ix2 n q := ⟨i 0, i 1, eq_ix2 i⟩
  have hq : q.val < 128 := q.isLt
  have hk : q.val < 129 := by omega
  unfold Cert.KernelIdeal.Host.sumsOf Cert.ReferenceIdeal.Host.sumsR Cert.KernelIdeal.Host.merged
  refine Eq.trans (slice2_axis1_apply (n1 := 129) 0 _ _ n q ⟨q.val, hk⟩ (Nat.zero_add _).symm) ?_
  refine Eq.trans (host_rowScatter_apply _ rfl rfl rfl rfl _ _ _ n ⟨q.val, hk⟩) ?_
  refine Eq.trans ?_ (host_rowScatter_apply _ rfl rfl rfl rfl _ _ _ n q).symm
  rw [bcast_scalar_const_apply, bcast_scalar_const_apply]
  refine congrArg (Ideal.ofBits .f32 0x00000000#32 + ·) (Finset.sum_congr rfl fun e _ => ?_)
  exact if_congr Iff.rfl (concat_cols_left msg _ _ e _ q rfl) rfl

/-- The counts: column 128 of the same scatter, read as a vector, is at `n` zero plus the sum over the edges that
    land on node `n` of the widened row's last column, which past the seam is the constant one: the reference's
    scatter of a vector of ones at `n`, term by term. -/
theorem countsOf_eq (msg : FVec Ideal Cert.KernelIdeal.S1600000x128 .f32) (v : IVec Cert.KernelIdeal.S1600000 32) :
    Cert.KernelIdeal.Host.countsOf msg v = Cert.ReferenceIdeal.Host.cntR v := by
  funext i
  obtain ⟨n, rfl⟩ : ∃ n : Fin 50000, i = ix1 n := ⟨i 0, eq_ix1 i⟩
  have hk : 128 < 129 := by omega
  unfold Cert.KernelIdeal.Host.countsOf Cert.ReferenceIdeal.Host.cntR Cert.KernelIdeal.Host.merged
  refine Eq.trans (shapeCast_apply _ _ (ix1 n) (ix2 n (0 : Fin 1)) ?_) ?_
  · rw [Shape.rowMajor_val_two, Shape.rowMajor_val_one]
    show n.val * 1 + 0 = n.val
    omega
  refine Eq.trans (slice2_axis1_apply (n1 := 129) 128 _ _ n (0 : Fin 1) ⟨128, hk⟩ rfl) ?_
  refine Eq.trans (host_rowScatter_apply _ rfl rfl rfl rfl _ _ _ n ⟨128, hk⟩) ?_
  refine Eq.trans ?_ (host_vecScatter_apply _ rfl rfl rfl rfl _ _ _ n).symm
  rw [bcast_scalar_const_apply, bcast_scalar_const_apply]
  refine congrArg (Ideal.ofBits .f32 0x00000000#32 + ·) (Finset.sum_congr rfl fun e _ => ?_)
  refine if_congr Iff.rfl ?_ rfl
  refine Eq.trans (concat_cols_right msg _ _ e ⟨128, hk⟩ (0 : Fin 1) rfl) ?_
  rw [bcast_scalar_const_apply, bcast_scalar_const_apply]

end Cert.Layer.Iface

end
-- ==== Proof.Products.lean ====
import proofs.«401195_j34832184770736_3_alg».proof.Proof.KTerms
import proofs.«401195_j34832184770736_3_alg».proof.Proof.RTerms
import proofs.«401195_j34832184770736_3_alg».proof.Proof.Spec
import proofs.«401195_j34832184770736_3_alg».proof.Proof.Gen.ReferenceIdeal.Read
import Idealize.ShloMosaic.Lib.ValueIdx
import Idealize.ShloMosaic.Lib.ValueLayout
import Idealize.ShloMosaic.Lib.Pipeline.Value
import Idealize.ShloMosaic.PureOps.Ideal.Laws

/-
  The matrix products and the rectifier of both programs, read at an index over the extended reals.

  A product of features with a transposed weight matrix is, at row `n` and column `j`, the sum over `k` of
  `x[n,k] · w[j,k]`: the host's contraction reads its right operand at `(k, j)`, and the transposed matrix there is the
  weight matrix at `(j, k)`. The 256 × 256 matrix made of two transposed 128 × 256 matrices side by side holds, in
  column `c < 128`, the first matrix's row `c`, and in column `128 + c` the second matrix's row `c`; so the two halves
  of the columns of the product with it are the two products with the transposed matrices. The rectifier on an array
  is the scalar rectifier at every entry: a scalar constant broadcast to a matrix reads that constant everywhere.
-/

noncomputable section

namespace Cert.Layer.Iface

open Idealize.ShloMosaic Idealize.ShloMosaic.ValueIdx Cert.Layer

/-- Two transposed 128 × 256 matrices side by side, read in the left half: column `c = j < 128`, row `k`, is the first
    matrix at `(j, k)`. -/
theorem wcat_left (a b : FVec Ideal Cert.KernelIdeal.S128x256 .f32) (k : Fin 256) (j : Fin 128) (c : Fin 256)
    (hc : c.val = j.val) : Cert.KernelIdeal.Host.wcat a b (ix2 k c) = a (ix2 j k) := by
  unfold Cert.KernelIdeal.Host.wcat
  refine (concatenate_pair_apply_left (t := Cert.KernelIdeal.S256x256) (s₁ := Cert.KernelIdeal.S256x128)
    (s₂ := Cert.KernelIdeal.S256x128) _ _ _ _ (ix2 k c) rfl (ix2 k j) (fun d => match d with
    | ⟨0, _⟩ => rfl
    | ⟨1, _⟩ => hc.symm)).trans ?_
  exact transpose_ix2_apply a _ k j

/-- … and in the right half: column `c = 128 + j`, row `k`, is the second matrix at `(j, k)`. -/
theorem wcat_right (a b : FVec Ideal Cert.KernelIdeal.S128x256 .f32) (k : Fin 256) (j : Fin 128) (c : Fin 256)
    (hc : c.val = 128 + j.val) : Cert.KernelIdeal.Host.wcat a b (ix2 k c) = b (ix2 j k) := by
  unfold Cert.KernelIdeal.Host.wcat
  refine (concatenate_pair_apply_right (t := Cert.KernelIdeal.S256x256) (s₁ := Cert.KernelIdeal.S256x128)
    (s₂ := Cert.KernelIdeal.S256x128) _ _ _ _ (ix2 k c) rfl rfl (ix2 k j) (fun d => match d with
    | ⟨0, _⟩ => fun _ => rfl
    | ⟨1, _⟩ => fun h => absurd rfl h) (by show j.val + 128 = c.val; omega)).trans ?_
  exact transpose_ix2_apply b _ k j

theorem mmCols_wcat_left (x : FVec Ideal Cert.KernelIdeal.S50000x256 .f32) (a b : FVec Ideal Cert.KernelIdeal.S128x256 .f32) :
    mmCols x (Cert.KernelIdeal.Host.wcat a b) 0 (by decide) = projT x a := by
  funext i
  obtain ⟨n, j, rfl⟩ : ∃ (n : Fin 50000) (j : Fin 128), i = ix2 n j := ⟨i 0, i 1, eq_ix2 i⟩
  show ∑ k : Fin 256, x (ix2 n k) * Cert.KernelIdeal.Host.wcat a b (ix2 k ⟨0 + j.val, _⟩) = ∑ k : Fin 256, x (ix2 n k) * a (ix2 j k)
  refine Finset.sum_congr rfl fun k _ => ?_
  rw [wcat_left a b k j _ (Nat.zero_add _)]

theorem mmCols_wcat_right (x : FVec Ideal Cert.KernelIdeal.S50000x256 .f32) (a b : FVec Ideal Cert.KernelIdeal.S128x256 .f32) :
    mmCols x (Cert.KernelIdeal.Host.wcat a b) 128 (by decide) = projT x b := by
  funext i
  obtain ⟨n, j, rfl⟩ : ∃ (n : Fin 50000) (j : Fin 128), i = ix2 n j := ⟨i 0, i 1, eq_ix2 i⟩
  show ∑ k : Fin 256, x (ix2 n k) * Cert.KernelIdeal.Host.wcat a b (ix2 k ⟨128 + j.val, _⟩) = ∑ k : Fin 256, x (ix2 n k) * b (ix2 j k)
  refine Finset.sum_congr rfl fun k _ => ?_
  rw [wcat_right a b k j _ rfl]

theorem emm_tr128 (a : FVec Ideal Cert.KernelIdeal.S1600000x128 .f32) (w : FVec Ideal Cert.KernelIdeal.S128x128 .f32) :
    emm a (Cert.KernelIdeal.Host.tr128 w) = eprojT a w := by
  funext i
  obtain ⟨e, j, rfl⟩ : ∃ (e : Fin 1600000) (j : Fin 128), i = ix2 e j := ⟨i 0, i 1, eq_ix2 i⟩
  show ∑ k : Fin 128, a (ix2 e k) * Cert.KernelIdeal.Host.tr128 w (ix2 k j) = ∑ k : Fin 128, a (ix2 e k) * w (ix2 j k)
  refine Finset.sum_congr rfl fun k _ => ?_
  unfold Cert.KernelIdeal.Host.tr128
  rw [transpose_ix2_apply w _ k j]

theorem dotN_eq (x : FVec Ideal Cert.ReferenceIdeal.S50000x256 .f32) (w : FVec Ideal Cert.ReferenceIdeal.S128x256 .f32) :
    Cert.ReferenceIdeal.Host.dotN x w = projT x w := by
  funext i
  obtain ⟨n, j, rfl⟩ : ∃ (n : Fin 50000) (j : Fin 128), i = ix2 n j := ⟨i 0, i 1, eq_ix2 i⟩
  refine (Cert.ReferenceIdeal.Read.val_main_v5_apply x w (ix2 n j)).trans ?_
  show _ = ∑ k : Fin 256, x (ix2 n k) * w (ix2 j k)
  refine Finset.sum_congr rfl fun k _ => ?_
  have el : Cert.ReferenceIdeal.Read.lidx_main_v5 (ix2 n j) k = ix2 n k :=
    funext fun d => match d with | ⟨0, _⟩ => rfl | ⟨1, _⟩ => rfl
  have er : Cert.ReferenceIdeal.Read.ridx_main_v5 (ix2 n j) k = ix2 k j :=
    funext fun d => match d with | ⟨0, _⟩ => rfl | ⟨1, _⟩ => rfl
  rw [el, er]
  unfold Cert.ReferenceIdeal.Read.val_main_v4
  rw [transpose_ix2_apply w _ k j]

theorem dotE_eq (a : FVec Ideal Cert.ReferenceIdeal.S1600000x128 .f32) (w : FVec Ideal Cert.ReferenceIdeal.S128x128 .f32) :
    Cert.ReferenceIdeal.Host.dotE a w = eprojT a w := by
  funext i
  obtain ⟨e, j, rfl⟩ : ∃ (e : Fin 1600000) (j : Fin 128), i = ix2 e j := ⟨i 0, i 1, eq_ix2 i⟩
  refine (Cert.ReferenceIdeal.Read.val_main_v9_apply a w (ix2 e j)).trans ?_
  show _ = ∑ k : Fin 128, a (ix2 e k) * w (ix2 j k)
  refine Finset.sum_congr rfl fun k _ => ?_
  have el : Cert.ReferenceIdeal.Read.lidx_main_v9 (ix2 e j) k = ix2 e k :=
    funext fun d => match d with | ⟨0, _⟩ => rfl | ⟨1, _⟩ => rfl
  have er : Cert.ReferenceIdeal.Read.ridx_main_v9 (ix2 e j) k = ix2 k j :=
    funext fun d => match d with | ⟨0, _⟩ => rfl | ⟨1, _⟩ => rfl
  rw [el, er]
  unfold Cert.ReferenceIdeal.Read.val_main_v8
  rw [transpose_ix2_apply w _ k j]

theorem lreluE_eq (p : FVec Ideal Cert.ReferenceIdeal.S1600000x128 .f32) :
    Cert.ReferenceIdeal.Host.lreluE p = fun i => lrelu (p i) := by
  funext i
  rfl
theorem lreluN_eq (p : FVec Ideal Cert.ReferenceIdeal.S50000x128 .f32) :
    Cert.ReferenceIdeal.Host.lreluN p = fun i => lrelu (p i) := by
  funext i
  rfl

end Cert.Layer.Iface

end
-- ==== Proof.HostReadsA.lean ====
import proofs.«401195_j34832184770736_3_alg».proof.Proof.Gen.KernelIdeal.Frame
import proofs.«401195_j34832184770736_3_alg».proof.Proof.KTerms
import Idealize.ShloMosaic.Lib.StableHlo.Run

noncomputable section

namespace Cert.KernelIdeal.HostReads

open Idealize.ShloMosaic Idealize.ShloMosaic.TcCoe Idealize.SL.Sem
open Cert.KernelIdeal Cert.KernelIdeal.Gen Cert.KernelIdeal.Host
variable (m : (ℓ : Loc nD τ sig) → Buf (Elt Ideal) ℓ) (ρ : Dev nD → PrngReg) (c : Dev nD)

/-! ## Each stretch of host operations, read at one buffer, from any starting contents

Every stretch is a straight line of array operations; what one buffer holds after it is the composition of the
operations on the path to that buffer, applied to the starting contents `V` of the buffers the path reads, and a buffer
the stretch does not write holds what it held. Stating this for an arbitrary `V` keeps each equation small. -/

section Stretches
open StableHlo

/-- Reading back, at its own type, a value stored at a typed reference's buffer type gives the value: the two
    transports along the same type equation cancel. -/
theorem ofBuf_toBuf {T : BufTy} (x : StableHlo.TRef sig T) (v : T.Contents (Elt Ideal)) : x.ofBuf (x.toBuf v) = v := by
  obtain ⟨r, h, h1, h2⟩ := x
  subst h
  rfl

variable (V : Valuation τ sig (Elt Ideal))

/-! ### The first stretch (before region 0): the two rows of the edge-index matrix as vectors, and two weight matrices
    transposed and set side by side -/

theorem h0_arg0 : after hostOps0 V (Proc.devRef .tc main_arg0) = V (Proc.devRef .tc main_arg0) := by after_results
theorem h0_arg2 : after hostOps0 V (Proc.devRef .tc main_arg2) = V (Proc.devRef .tc main_arg2) := by after_results
theorem h0_arg3 : after hostOps0 V (Proc.devRef .tc main_arg3) = V (Proc.devRef .tc main_arg3) := by after_results
theorem h0_arg8 : after hostOps0 V (Proc.devRef .tc main_arg8) = V (Proc.devRef .tc main_arg8) := by after_results
theorem h0_v1 : after hostOps0 V (Proc.devRef .tc main_v1) = srcV (V (Proc.devRef .tc main_arg1)) := by
  after_results
  rfl
theorem h0_v3 : after hostOps0 V (Proc.devRef .tc main_v3) = tgtV (V (Proc.devRef .tc main_arg1)) := by
  after_results
  rfl
theorem h0_v6 : after hostOps0 V (Proc.devRef .tc main_v6)
    = wcat (V (Proc.devRef .tc main_arg4)) (V (Proc.devRef .tc main_arg5)) := by
  after_results
  rfl

/-! ### The second stretch: the row gather of region 0's first output at the source nodes

The node numbers are wrapped (a negative one moved up by the number of nodes), the rows gathered at the wrapped numbers,
and every row whose wrapped number is out of range replaced by the filler word: `take` of the table and the numbers. -/

theorem h1_v8 : after hostOps1 V (Proc.devRef .tc main_v8)
    = take (V (Proc.devRef .tc main_v7_0)) (V (Proc.devRef .tc main_v1)) := by
  after_results_simp
  simp only [ofBuf_toBuf]
  have e1 : (TRef.of main_v1 : TRef sig ⟨S1600000, .i32⟩).ofBuf (V (Proc.devRef .tc main_v1))
      = V (Proc.devRef .tc main_v1) := rfl
  have e2 : (TRef.of main_v7_0 : TRef sig ⟨S50000x128, .f32⟩).ofBuf (V (Proc.devRef .tc main_v7_0))
      = V (Proc.devRef .tc main_v7_0) := rfl
  rw [e1, e2]
  refine (cast_eq _ _).trans ?_
  unfold take inRange nrm
  rfl
theorem h1_v3 : after hostOps1 V (Proc.devRef .tc main_v3) = V (Proc.devRef .tc main_v3) := by after_results_simp
theorem h1_v7_1 : after hostOps1 V (Proc.devRef .tc main_v7_1) = V (Proc.devRef .tc main_v7_1) := by after_results_simp
theorem h1_arg2 : after hostOps1 V (Proc.devRef .tc main_arg2) = V (Proc.devRef .tc main_arg2) := by after_results_simp
theorem h1_arg3 : after hostOps1 V (Proc.devRef .tc main_arg3) = V (Proc.devRef .tc main_arg3) := by after_results_simp
theorem h1_arg8 : after hostOps1 V (Proc.devRef .tc main_arg8) = V (Proc.devRef .tc main_arg8) := by after_results_simp

/-! ### The third stretch: the same row gather, of region 0's second output at the target nodes -/

theorem h2_v9 : after hostOps1_1 V (Proc.devRef .tc main_v9)
    = take (V (Proc.devRef .tc main_v7_1)) (V (Proc.devRef .tc main_v3)) := by
  after_results_simp
  simp only [ofBuf_toBuf]
  have e1 : (TRef.of main_v3 : TRef sig ⟨S1600000, .i32⟩).ofBuf (V (Proc.devRef .tc main_v3))
      = V (Proc.devRef .tc main_v3) := rfl
  have e2 : (TRef.of main_v7_1 : TRef sig ⟨S50000x128, .f32⟩).ofBuf (V (Proc.devRef .tc main_v7_1))
      = V (Proc.devRef .tc main_v7_1) := rfl
  rw [e1, e2]
  refine (cast_eq _ _).trans ?_
  unfold take inRange nrm
  rfl
theorem h2_v8 : after hostOps1_1 V (Proc.devRef .tc main_v8) = V (Proc.devRef .tc main_v8) := by after_results_simp
theorem h2_arg2 : after hostOps1_1 V (Proc.devRef .tc main_arg2) = V (Proc.devRef .tc main_arg2) := by after_results_simp
theorem h2_arg3 : after hostOps1_1 V (Proc.devRef .tc main_arg3) = V (Proc.devRef .tc main_arg3) := by after_results_simp
theorem h2_arg8 : after hostOps1_1 V (Proc.devRef .tc main_arg8) = V (Proc.devRef .tc main_arg8) := by after_results_simp

/-! ### The fourth stretch (region 1's entry): two square weight matrices transposed -/

theorem h3_v10 : after hostOps1_2 V (Proc.devRef .tc main_v10) = tr128 (V (Proc.devRef .tc main_arg3)) := by
  after_results
  rfl
theorem h3_v11 : after hostOps1_2 V (Proc.devRef .tc main_v11) = tr128 (V (Proc.devRef .tc main_arg8)) := by
  after_results
  rfl
theorem h3_v8 : after hostOps1_2 V (Proc.devRef .tc main_v8) = V (Proc.devRef .tc main_v8) := by after_results
theorem h3_v9 : after hostOps1_2 V (Proc.devRef .tc main_v9) = V (Proc.devRef .tc main_v9) := by after_results
theorem h3_arg2 : after hostOps1_2 V (Proc.devRef .tc main_arg2) = V (Proc.devRef .tc main_arg2) := by after_results

end Stretches

/-! ## The buffers the first two regions read, walked back through the boundaries

Each boundary's contents are the previous boundary's run through one stretch (the equations above, at those contents) or
through a region, which leaves every buffer that is none of its arrays as it was. -/

/-- The launch memory at an argument's buffer is the argument. -/
theorem W0_arg (b : Ref sig .tc) : W0 m ρ c (Proc.devRef .tc b) = m ((c.tc : Thread nD τ).loc b) := rfl

theorem W1_v6 : W1 m ρ c (Proc.devRef .tc main_v6) = wcat (m ((c.tc : Thread nD τ).loc main_arg4)) (m ((c.tc : Thread nD τ).loc main_arg5)) :=
  h0_v6 (W0 m ρ c)
theorem W1_arg0 : W1 m ρ c (Proc.devRef .tc main_arg0) = m ((c.tc : Thread nD τ).loc main_arg0) :=
  h0_arg0 (W0 m ρ c)
theorem W5_v8 : W5 m ρ c (Proc.devRef .tc main_v8)
    = take (W2 m ρ c (Proc.devRef .tc main_v7_0)) (srcV (m ((c.tc : Thread nD τ).loc main_arg1))) :=
  (h3_v8 (W4 m ρ c)).trans <| (h2_v8 (W3 m ρ c)).trans <| (h1_v8 (W2 m ρ c)).trans <|
    congrArg (take (W2 m ρ c (Proc.devRef .tc main_v7_0)))
      ((W2_of_ne m ρ c main_v1 (by decide)).trans (h0_v1 (W0 m ρ c)))
theorem W5_v9 : W5 m ρ c (Proc.devRef .tc main_v9)
    = take (W2 m ρ c (Proc.devRef .tc main_v7_1)) (tgtV (m ((c.tc : Thread nD τ).loc main_arg1))) :=
  (h3_v9 (W4 m ρ c)).trans <| (h2_v9 (W3 m ρ c)).trans <|
    congrArg₂ take (h1_v7_1 (W2 m ρ c))
      ((h1_v3 (W2 m ρ c)).trans <| (W2_of_ne m ρ c main_v3 (by decide)).trans (h0_v3 (W0 m ρ c)))
theorem W5_v10 : W5 m ρ c (Proc.devRef .tc main_v10) = tr128 (m ((c.tc : Thread nD τ).loc main_arg3)) :=
  (h3_v10 (W4 m ρ c)).trans <| congrArg tr128 <|
    (h2_arg3 (W3 m ρ c)).trans <| (h1_arg3 (W2 m ρ c)).trans <|
      (W2_of_ne m ρ c main_arg3 (by decide)).trans (h0_arg3 (W0 m ρ c))
theorem W5_v11 : W5 m ρ c (Proc.devRef .tc main_v11) = tr128 (m ((c.tc : Thread nD τ).loc main_arg8)) :=
  (h3_v11 (W4 m ρ c)).trans <| congrArg tr128 <|
    (h2_arg8 (W3 m ρ c)).trans <| (h1_arg8 (W2 m ρ c)).trans <|
      (W2_of_ne m ρ c main_arg8 (by decide)).trans (h0_arg8 (W0 m ρ c))
theorem W5_arg2 : W5 m ρ c (Proc.devRef .tc main_arg2) = m ((c.tc : Thread nD τ).loc main_arg2) :=
  (h3_arg2 (W4 m ρ c)).trans <| (h2_arg2 (W3 m ρ c)).trans <| (h1_arg2 (W2 m ρ c)).trans <|
    (W2_of_ne m ρ c main_arg2 (by decide)).trans (h0_arg2 (W0 m ρ c))

end Cert.KernelIdeal.HostReads

end
-- ==== Proof.HostReadsB.lean ====
import proofs.«401195_j34832184770736_3_alg».proof.Proof.Gen.KernelIdeal.Frame
import proofs.«401195_j34832184770736_3_alg».proof.Proof.KTerms
import Idealize.ShloMosaic.Lib.StableHlo.Run

noncomputable section

namespace Cert.KernelIdeal.HostReads

open Idealize.ShloMosaic Idealize.ShloMosaic.TcCoe Idealize.SL.Sem
open Cert.KernelIdeal Cert.KernelIdeal.Gen Cert.KernelIdeal.Host
variable (m : (ℓ : Loc nD τ sig) → Buf (Elt Ideal) ℓ) (ρ : Dev nD → PrngReg) (c : Dev nD)

/-! ## What the third region finds in the buffers it reads

Between the second and the third region the program runs nineteen whole-array operations. Two of their results are
read by the third region: the mean of the messages arriving at each node (scatter the message rows, each extended by
a one, by target node; divide the first 128 columns by the larger of the last column and one), and the two
output-side weight matrices transposed and set side by side. Both are read here as the named functions of what
the second region left and of the launch memory. The third region's first array is an argument nobody writes, and
the second region's second result is touched neither by those operations nor by the third region. -/

/-- The buffers the nineteen operations between the second and the third region write, in order. -/
private abbrev written2 : List (Ref sig .tc) :=
  [main_cst, main_v13, main_v14, main_cst_0, main_v15, main_v16, main_v17, main_v18, main_v19, main_v20,
   main_cst_1, main_v21, main_v22, main_v23, main_v24, main_v25, main_v26, main_v27, main_v28]

/-- Every one of those operations writes one of the listed buffers. -/
private theorem hostOps2_writes :
    (hostOps2 : List (HloOp τ sig (Elt Ideal))).Forall fun op => op.writes ⊆ (written2.map (Proc.devRef (τ := τ) .tc)).toFinset := by
  simp only [hostOps2, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- A buffer outside that list holds at the third region's entry what the second region left. -/
private theorem W7_of_not_written {r : Ref sig .tc} (hr : r ∉ written2) :
    W7 m ρ c (Proc.devRef .tc r) = W6 m ρ c (Proc.devRef .tc r) :=
  StableHlo.after_of_writes_sub hostOps2 (W6 m ρ c) hostOps2_writes hr

/-- "No operation of this stretch writes this buffer", for a literal stretch and a literal buffer: each operation
    writes exactly its result buffer, and two buffers with different names are different. -/
local macro "no_write" ops:ident : tactic =>
  `(tactic| (refine List.forall_iff_forall_mem.mp ?_
             simp only [$ops:ident, List.Forall, StableHlo.nullary_writes, StableHlo.unary_writes, StableHlo.binary_writes,
               StableHlo.ternary_writes, StableHlo.reshape_writes, Finset.mem_singleton]
             repeat' apply And.intro
             all_goals exact StableHlo.devRef_ne_of_ne (by decide)))

/-- The second row of the edge-index matrix, cut out and flattened before the first region and written by nothing
    afterwards (it is no array of the first two regions, and no later operation has it as its result), is what the
    second region's exit still holds in that buffer. -/
private theorem W6_v3 : W6 m ρ c (Proc.devRef .tc main_v3) = tgtV (m ((c.tc : Thread nD τ).loc main_arg1)) :=
  calc W6 m ρ c (Proc.devRef .tc main_v3)
    _ = W5 m ρ c (Proc.devRef .tc main_v3) := W6_of_ne m ρ c main_v3 (by decide)
    _ = W4 m ρ c (Proc.devRef .tc main_v3) := StableHlo.after_of_forall_not_mem (b := Proc.devRef .tc main_v3) _ _ (by no_write hostOps1_2)
    _ = W3 m ρ c (Proc.devRef .tc main_v3) := StableHlo.after_of_forall_not_mem (b := Proc.devRef .tc main_v3) _ _ (by no_write hostOps1_1)
    _ = W2 m ρ c (Proc.devRef .tc main_v3) := StableHlo.after_of_forall_not_mem (b := Proc.devRef .tc main_v3) _ _ (by no_write hostOps1)
    _ = W1 m ρ c (Proc.devRef .tc main_v3) := W2_of_ne m ρ c main_v3 (by decide)
    _ = tgtV (m ((c.tc : Thread nD τ).loc main_arg1)) := by
          show StableHlo.after hostOps0 (W0 m ρ c) (Proc.devRef .tc main_v3) = _
          after_results; rfl

/-- An output-side weight matrix is an argument: the second region's exit holds it as launched (walk forward to the
    program's end, where every argument is as launched). -/
private theorem W6_arg6 : W6 m ρ c (Proc.devRef .tc main_arg6) = m ((c.tc : Thread nD τ).loc main_arg6) :=
  ((W8_of_ne m ρ c main_arg6 (by decide)).trans (W7_of_not_written m ρ c (by decide))).symm.trans (W8_main_arg6 m ρ c)
private theorem W6_arg7 : W6 m ρ c (Proc.devRef .tc main_arg7) = m ((c.tc : Thread nD τ).loc main_arg7) :=
  ((W8_of_ne m ρ c main_arg7 (by decide)).trans (W7_of_not_written m ρ c (by decide))).symm.trans (W8_main_arg7 m ρ c)

section Stretch
/-! The nineteen operations over ANY contents `W`: the two results as the named functions of the buffers they read. -/
variable (W : Valuation τ sig (Elt Ideal))

/-- The sixteenth operation's result: the quotient of the scattered sums by the clamped counts, both cut from one
    scatter of the message rows (with their column of ones) by the node numbers. The two operands of the
    concatenation sit inside a list of shaped pieces and are read there one by one. -/
private theorem agg_of_stretch : StableHlo.after (hostOps2 (F := Ideal)) W (Proc.devRef .tc main_v25)
    = aggOf (W (Proc.devRef .tc main_v12_0)) (W (Proc.devRef .tc main_v3)) := by
  after_results_simp
  rw [StableHlo.unary_result main_cst main_v13, StableHlo.nullary_result main_cst,
    StableHlo.unary_result_ne main_cst main_v13 _ _ _ _ (r := main_v12_0) (by decide),
    StableHlo.nullary_result_ne main_cst _ _ _ (r := main_v12_0) (by decide)]
  rfl

/-- The last operation's result: the two transposed weight matrices side by side. -/
private theorem wcat_of_stretch : StableHlo.after (hostOps2 (F := Ideal)) W (Proc.devRef .tc main_v28)
    = wcat (W (Proc.devRef .tc main_arg6)) (W (Proc.devRef .tc main_arg7)) := by
  after_results; rfl

end Stretch

theorem W7_v25 : W7 m ρ c (Proc.devRef .tc main_v25)
    = aggOf (W6 m ρ c (Proc.devRef .tc main_v12_0)) (tgtV (m ((c.tc : Thread nD τ).loc main_arg1))) :=
  (agg_of_stretch (W6 m ρ c)).trans (congrArg (aggOf (W6 m ρ c (Proc.devRef .tc main_v12_0))) (W6_v3 m ρ c))
theorem W7_v28 : W7 m ρ c (Proc.devRef .tc main_v28) = wcat (m ((c.tc : Thread nD τ).loc main_arg6)) (m ((c.tc : Thread nD τ).loc main_arg7)) :=
  (wcat_of_stretch (W6 m ρ c)).trans (congrArg₂ wcat (W6_arg6 m ρ c) (W6_arg7 m ρ c))
theorem W7_arg0 : W7 m ρ c (Proc.devRef .tc main_arg0) = m ((c.tc : Thread nD τ).loc main_arg0) :=
  ((W8_arr m ρ c 0).trans (((dat2 (V7 m ρ) c).arrAt_in 0 rfl _).trans (A_eq2 (V7 m ρ) c 0))).symm.trans (W8_main_arg0 m ρ c)
theorem W8_v12_1 : W8 m ρ c (Proc.devRef .tc main_v12_1) = W6 m ρ c (Proc.devRef .tc main_v12_1) :=
  (W8_of_ne m ρ c main_v12_1 (by decide)).trans (W7_of_not_written m ρ c (by decide))

end Cert.KernelIdeal.HostReads

end
-- ==== Proof.Bridge.lean ====
/-
  The two programs compute one function of their arguments.

  Write `P(w) = x · wᵀ` for the node projections and `g(h, v)` for the rows of `h` gathered at the wrapped node
  numbers `v`. Under the precondition every entry of the edge-index matrix lies in -50000 … 49999, so the kernel
  program's filled gather is the plain gather, and step by step through its three regions:
    region 0 leaves `P(W_hu)` and `P(W_hw)` (the two column halves of one product with the fused matrix);
    region 1 leaves the messages `ℓ(edge_attr · W_eᵀ + g(P(W_hu), src) + g(P(W_hw), tgt))` and their product with `W_attrᵀ`;
    the merged scatter of (messages | ones) by target, sliced, is the two separate scatters, so the mean is the same;
    region 2 leaves `P(W_emb) + ℓ(P(W_2) + mean)`.
  These are the reference's terms read at an index: the same sums of products, the same rectifier, the same gathers
  and scatters applied to equal arrays.
-/
import proofs.«401195_j34832184770736_3_alg».proof.Proof.Gen.KernelIdeal.Frame
import proofs.«401195_j34832184770736_3_alg».proof.Proof.Spec
import proofs.«401195_j34832184770736_3_alg».proof.Proof.KTerms
import proofs.«401195_j34832184770736_3_alg».proof.Proof.RTerms
import proofs.«401195_j34832184770736_3_alg».proof.Proof.Region0
import proofs.«401195_j34832184770736_3_alg».proof.Proof.Region1
import proofs.«401195_j34832184770736_3_alg».proof.Proof.Region2
import proofs.«401195_j34832184770736_3_alg».proof.Proof.Take
import proofs.«401195_j34832184770736_3_alg».proof.Proof.Scatter
import proofs.«401195_j34832184770736_3_alg».proof.Proof.Products
import proofs.«401195_j34832184770736_3_alg».proof.Proof.HostReadsA
import proofs.«401195_j34832184770736_3_alg».proof.Proof.HostReadsB
import Idealize.ShloMosaic.Lib.ValueIdx

noncomputable section

namespace Cert.Layer.Bridge

open Idealize.ShloMosaic Idealize.ShloMosaic.TcCoe Idealize.SL.Sem Idealize.ShloMosaic.ValueIdx
open Cert.Layer Cert.Layer.Iface
open Cert.KernelIdeal Cert.KernelIdeal.Gen Cert.KernelIdeal.Regions Cert.KernelIdeal.HostReads

namespace K
export Cert.KernelIdeal.Host (srcV tgtV nrm take wcat tr128 aggOf meanOf sumsOf countsOf)
end K
namespace R
export Cert.ReferenceIdeal.Host (srcV tgtV nrm gath dotN dotE lreluE lreluN msgR sumsR cntR meanOf attrsR embR)
end R

/-! ## The two vocabularies are one -/

theorem srcV_eq (ei : IVec S2x1600000 32) : K.srcV ei = R.srcV ei := rfl
theorem tgtV_eq (ei : IVec S2x1600000 32) : K.tgtV ei = R.tgtV ei := rfl
theorem nrm_eq (v : IVec S1600000 32) : K.nrm v = R.nrm v := rfl
theorem gath_eq (h : FVec Ideal S50000x128 .f32) (i : IVec S1600000x1 32) :
    Host.gather gather_S50000x128_S1600000x1_S1600000x128_1_0_n_n_0_1_1128 h i = R.gath h i := rfl
theorem meanOf_eq (s : FVec Ideal S50000x128 .f32) (n : FVec Ideal S50000 .f32) : K.meanOf s n = R.meanOf s n := rfl

/-! ## The reference's terms at an index -/

/-- The reference's messages are the rectifier of the three summands, index by index. -/
theorem msgR_eq (x : FVec Ideal S50000x256 .f32) (ei : IVec S2x1600000 32) (ea : FVec Ideal S1600000x128 .f32)
    (We : FVec Ideal S128x128 .f32) (Whu Whw : FVec Ideal S128x256 .f32) :
    R.msgR x ei ea We Whu Whw
      = msgOf (eprojT ea We) (R.gath (projT x Whu) (R.nrm (R.srcV ei))) (R.gath (projT x Whw) (R.nrm (R.tgtV ei))) := by
  unfold Cert.ReferenceIdeal.Host.msgR
  rw [lreluE_eq, dotE_eq, dotN_eq, dotN_eq]
  rfl

variable (m : (ℓ : Loc nD τ sig) → Buf (Elt Ideal) ℓ) (ρ : Dev nD → PrngReg) (c : Dev nD)

/-! ## The kernel program, region by region -/

/-- Region 0's first output is the projection by `W_hu`. -/
theorem hu_eq : W2 m ρ c (Proc.devRef .tc main_v7_0)
    = projT (m ((c.tc : Thread nD τ).loc main_arg0)) (m ((c.tc : Thread nD τ).loc main_arg4)) := by
  have h := (W2_arr m ρ c 2).trans (final0_2 (V1 m ρ) c)
  rw [show V1 m ρ c main_arg0 = W1 m ρ c (Proc.devRef .tc main_arg0) from rfl,
    show V1 m ρ c main_v6 = W1 m ρ c (Proc.devRef .tc main_v6) from rfl, W1_arg0, W1_v6, mmCols_wcat_left] at h
  exact h

/-- Region 0's second output is the projection by `W_hw`. -/
theorem hw_eq : W2 m ρ c (Proc.devRef .tc main_v7_1)
    = projT (m ((c.tc : Thread nD τ).loc main_arg0)) (m ((c.tc : Thread nD τ).loc main_arg5)) := by
  have h := (W2_arr m ρ c 3).trans (final0_3 (V1 m ρ) c)
  rw [show V1 m ρ c main_arg0 = W1 m ρ c (Proc.devRef .tc main_arg0) from rfl,
    show V1 m ρ c main_v6 = W1 m ρ c (Proc.devRef .tc main_v6) from rfl, W1_arg0, W1_v6, mmCols_wcat_right] at h
  exact h

variable (hpre : Cert.Pre_KernelIdeal m)
include hpre

/-- Region 1's first output is the reference's messages. -/
theorem msg_eq : W6 m ρ c (Proc.devRef .tc main_v12_0)
    = R.msgR (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  have h := (W6_arr m ρ c 5).trans (final1_5 (V5 m ρ) c)
  rw [show V5 m ρ c main_arg2 = W5 m ρ c (Proc.devRef .tc main_arg2) from rfl,
    show V5 m ρ c main_v10 = W5 m ρ c (Proc.devRef .tc main_v10) from rfl,
    show V5 m ρ c main_v8 = W5 m ρ c (Proc.devRef .tc main_v8) from rfl,
    show V5 m ρ c main_v9 = W5 m ρ c (Proc.devRef .tc main_v9) from rfl,
    W5_arg2, W5_v10, W5_v8, W5_v9, hu_eq, hw_eq, emm_tr128,
    take_eq _ _ (srcV_range m hpre c), take_eq _ _ (tgtV_range m hpre c),
    gath_eq, gath_eq, nrm_eq, nrm_eq, srcV_eq, tgtV_eq] at h
  rw [msgR_eq]
  exact h

/-- The second result: region 1's second output, untouched afterwards, is the reference's attributes. -/
theorem attrs_eq : W8 m ρ c (Proc.devRef .tc main_v12_1)
    = R.attrsR (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg8)) := by
  have h := (W6_arr m ρ c 6).trans (final1_6 (V5 m ρ) c)
  have h5 := (W6_arr m ρ c 5).trans (final1_5 (V5 m ρ) c)
  rw [← h5, msg_eq m ρ c hpre,
    show V5 m ρ c main_v11 = W5 m ρ c (Proc.devRef .tc main_v11) from rfl, W5_v11, emm_tr128] at h
  rw [W8_v12_1]
  unfold Cert.ReferenceIdeal.Host.attrsR
  rw [dotE_eq]
  exact h

/-- The first result: region 2's output is the reference's embeddings. -/
theorem emb_eq : W8 m ρ c (Proc.devRef .tc main_v29)
    = R.embR (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) := by
  have h := (W8_arr m ρ c 3).trans (final2_3 (V7 m ρ) c)
  rw [show V7 m ρ c main_arg0 = W7 m ρ c (Proc.devRef .tc main_arg0) from rfl,
    show V7 m ρ c main_v28 = W7 m ρ c (Proc.devRef .tc main_v28) from rfl,
    show V7 m ρ c main_v25 = W7 m ρ c (Proc.devRef .tc main_v25) from rfl,
    W7_arg0, W7_v28, W7_v25, msg_eq m ρ c hpre, mmCols_wcat_left, mmCols_wcat_right] at h
  unfold Cert.KernelIdeal.Host.aggOf at h
  rw [sumsOf_eq, countsOf_eq, meanOf_eq, tgtV_eq] at h
  unfold Cert.ReferenceIdeal.Host.embR
  rw [lreluN_eq, dotN_eq, dotN_eq]
  exact h

end Cert.Layer.Bridge

end
-- ==== Proof.lean ====
/-
  One message-passing layer of a graph network, computed two ways, is one function of its inputs over the extended reals.

  The layer projects 50000 nodes' features by four weight matrices, forms for each of 1600000 edges the leaky
  rectifier of (edge features projected) + (source node's first projection) + (target node's second projection),
  projects that message once more to the edge's output attributes, averages the messages arriving at each node
  (zero where none arrives), and returns for each node its fourth projection plus the rectifier of its third
  projection plus that average. One program does this in three tiled matrix kernels with fused weight matrices, a
  filled row gather and one merged scatter between them; the other with plain whole-array operations.

  The claim holds where every entry of the edge-index matrix is a node number in -50000 … 49999 (a negative one
  counts from the end): there the filled gather fills nothing. Both programs then run to the end leaving their
  arguments as they were, and their two results agree entry by entry: sums of the same products in another
  arrangement, the same rectifier, gathers and scatters of equal arrays. No law beyond reindexing a finite sum is
  used, so the finiteness of the float inputs is never opened; nothing was rewritten in idealizing the kernel
  program, so that it is the kernel program's idealization holds trivially.
-/
import proofs.«401195_j34832184770736_3_alg».proof.Defs
import proofs.«401195_j34832184770736_3_alg».proof.Proof.Gen.Kernel
import proofs.«401195_j34832184770736_3_alg».proof.Proof.Gen.Kernel.Skeleton
import proofs.«401195_j34832184770736_3_alg».proof.Proof.Gen.Kernel.Launch
import proofs.«401195_j34832184770736_3_alg».proof.Proof.Gen.Kernel.Points
import proofs.«401195_j34832184770736_3_alg».proof.Proof.Gen.Kernel.Frame
import proofs.«401195_j34832184770736_3_alg».proof.Proof.Gen.KernelIdeal
import proofs.«401195_j34832184770736_3_alg».proof.Proof.Gen.KernelIdeal.Skeleton
import proofs.«401195_j34832184770736_3_alg».proof.Proof.Gen.KernelIdeal.Launch
import proofs.«401195_j34832184770736_3_alg».proof.Proof.Gen.KernelIdeal.Points
import proofs.«401195_j34832184770736_3_alg».proof.Proof.Gen.KernelIdeal.Frame
import proofs.«401195_j34832184770736_3_alg».proof.Proof.Gen.ReferenceIdeal
import proofs.«401195_j34832184770736_3_alg».proof.Proof.Gen.ReferenceIdeal.Run
import proofs.«401195_j34832184770736_3_alg».proof.Proof.Gen.ReferenceIdeal.Read
import proofs.«401195_j34832184770736_3_alg».proof.Proof.Gen.Pre_finite_inputs
import proofs.«401195_j34832184770736_3_alg».proof.Proof.RunNamed
import proofs.«401195_j34832184770736_3_alg».proof.Proof.Bridge
import Idealize.ShloMosaic.Adequacy
import Idealize.ShloMosaic.Init

noncomputable section

namespace Cert.Proof

open Idealize.ShloMosaic Idealize.ShloMosaic.TcCoe Idealize.SL.Sem

/-- The kernel program, as printed, runs to the end and leaves its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on the nine arguments both programs end with the reference's embeddings and attributes of
    those arguments: the kernel program's last segment boundary holds them (region by region), the reference's run
    states them. -/
theorem algebraic : Cert.algebraic_KernelIdeal_ReferenceIdeal := by
  intro m ρ m' ρ' hpre hagree
  refine ⟨fun c => Cert.ReferenceIdeal.Host.embR
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)),
    fun c => Cert.ReferenceIdeal.Host.attrsR
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.Layer.Bridge.emb_eq m ρ c hpre),
        (h c).2.1.trans (Cert.Layer.Bridge.attrs_eq m ρ c hpre), (h c).2.2⟩)
      (Cert.KernelIdeal.Named.run_named (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · rw [show Cert.ReferenceIdeal.Value.res_main_v55 m' c = _ from Cert.ReferenceIdeal.Host.res_out0_eq m' c,
        (hagree c).1, (hagree c).2.1, (hagree c).2.2.1, (hagree c).2.2.2.1, (hagree c).2.2.2.2.1, (hagree c).2.2.2.2.2.1,
        (hagree c).2.2.2.2.2.2.1, (hagree c).2.2.2.2.2.2.2.1]
    · rw [show Cert.ReferenceIdeal.Value.res_main_v44 m' c = _ from Cert.ReferenceIdeal.Host.res_out1_eq m' c,
        (hagree c).1, (hagree c).2.1, (hagree c).2.2.1, (hagree c).2.2.2.1, (hagree c).2.2.2.2.1, (hagree c).2.2.2.2.2.1,
        (hagree c).2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
